-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S576x256 : Shape := ⟨2, ![576, 256]⟩
abbrev S256 : Shape := ⟨1, ![256]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel
  bcast_S_S576x256 : S_.BroadcastsInDim S576x256 (![] : Fin 0 → Fin S576x256.rank)
  reducesTo_S576x256_S_d0_1 : S576x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x128x128x64 .f32) (main_arg1 : FVec F S576x256 .f32) (main_arg2 : FVec F S256 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_v4 : FVec F S576x256 .f32 := Host.absf main_arg1
  let main_cst_0 : FVec F S_ .f32 := constant S_ .f32 0x7F800000#32
  let main_v5 : FVec F S576x256 .f32 := broadcastInDim S576x256 ![] bcast_S_S576x256 main_cst_0
  let main_v6 : IVec S576x256 1 := cmpf .olt main_v4 main_v5
  let main_c_1 : IVec S_ 1 := constantI S_ 1 1#1
  let main_v7 : IVec S_ 1 := (fun x v => Host.reduce IntOp.andi x v reducesTo_S576x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x128x128x64 : Shape := ⟨4, ![16, 128, 128, 64]⟩
abbrev S576x256 : Shape := ⟨2, ![576, 256]⟩
abbrev S256 : Shape := ⟨1, ![256]⟩
abbrev S16x128x128x256 : Shape := ⟨4, ![16, 128, 128, 256]⟩
abbrev S1x128x128x64 : Shape := ⟨4, ![1, 128, 128, 64]⟩
abbrev S576x128 : Shape := ⟨2, ![576, 128]⟩
abbrev S128 : Shape := ⟨1, ![128]⟩
abbrev S1x128x128x128 : Shape := ⟨4, ![1, 128, 128, 128]⟩
abbrev S128x128x128 : Shape := ⟨3, ![128, 128, 128]⟩
abbrev S128x128x64 : Shape := ⟨3, ![128, 128, 64]⟩
abbrev S127x128x64 : Shape := ⟨3, ![127, 128, 64]⟩
abbrev S1x128x64 : Shape := ⟨3, ![1, 128, 64]⟩
abbrev S128x127x64 : Shape := ⟨3, ![128, 127, 64]⟩
abbrev S128x1x64 : Shape := ⟨3, ![128, 1, 64]⟩
abbrev S64x128 : Shape := ⟨2, ![64, 128]⟩
abbrev S64x128x64 : Shape := ⟨3, ![64, 128, 64]⟩
abbrev S8192x64 : Shape := ⟨2, ![8192, 64]⟩
abbrev S8192x128 : Shape := ⟨2, ![8192, 128]⟩
abbrev S64x128x128 : Shape := ⟨3, ![64, 128, 128]⟩
abbrev S1x1x128 : Shape := ⟨3, ![1, 1, 128]⟩

abbrev nBuf : Space → Nat
  | .hbm => 4
  | .vmem => 9
  | .smem => 0
  | _ => 0

abbrev bufTy : (tb : Table) → Fin (tcTables nBuf tb) → BufTy
  | .hbm, ⟨0, _⟩ => ⟨S16x128x128x64, .f32⟩
  | .hbm, ⟨1, _⟩ => ⟨S576x256, .f32⟩
  | .hbm, ⟨2, _⟩ => ⟨S256, .f32⟩
  | .hbm, ⟨3, _⟩ => ⟨S16x128x128x256, .f32⟩
  | .local _ .vmem, ⟨0, _⟩ => ⟨S1x128x128x64, .f32⟩
  | .local _ .vmem, ⟨1, _⟩ => ⟨S1x128x128x64, .f32⟩
  | .local _ .vmem, ⟨2, _⟩ => ⟨S576x128, .f32⟩
  | .local _ .vmem, ⟨3, _⟩ => ⟨S576x128, .f32⟩
  | .local _ .vmem, ⟨4, _⟩ => ⟨S128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | .local _ .vmem, ⟨8, _⟩ => ⟨S128x128x128, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S576x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  bitsLt_bf16_f32 : FTy.bits .bf16 < FTy.bits .f32
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  slices_S128x128x64_o1_0_0_S127x128x64 : S128x128x64.Slices ![1, 0, 0] S127x128x64
  slices_S128x128x64_o0_0_0_S1x128x64 : S128x128x64.Slices ![0, 0, 0] S1x128x64
  concatenates_S127x128x64_S1x128x64_S128x128x64_d0 : Shape.Concatenates [S127x128x64, S1x128x64] S128x128x64 0
  slices_S128x128x64_o0_1_0_S128x127x64 : S128x128x64.Slices ![0, 1, 0] S128x127x64
  slices_S128x128x64_o0_0_0_S128x1x64 : S128x128x64.Slices ![0, 0, 0] S128x1x64
  concatenates_S128x127x64_S128x1x64_S128x128x64_d1 : Shape.Concatenates [S128x127x64, S128x1x64] S128x128x64 1
  inb_S576x128_S64x128_0_0 : ∀ a, (![0, 0] : Fin 2 → Nat) a + S64x128.size a ≤ S576x128.size a
  h_S64x128 : 0 < S64x128.numel
  slices_S128x128x64_o0_0_0_S64x128x64 : S128x128x64.Slices ![0, 0, 0] S64x128x64
  shapeCasts_S64x128x64_S8192x64 : S64x128x64.ShapeCasts S8192x64
  inb_S128x128x128_S64x128x128_0_0_0 : ∀ a, (![0, 0, 0] : Fin 3 → Nat) a + S64x128x128.size a ≤ S128x128x128.size a
  h_S64x128x128 : 0 < S64x128x128.numel
  shapeCasts_S8192x128_S64x128x128 : S8192x128.ShapeCasts S64x128x128
  shapeCasts_S64x128x128_S64x128x128 : S64x128x128.ShapeCasts S64x128x128
  slices_S128x128x64_o64_0_0_S64x128x64 : S128x128x64.Slices ![64, 0, 0] S64x128x64
  inb_S128x128x128_S64x128x128_64_0_0 : ∀ a, (![64, 0, 0] : Fin 3 → Nat) a + S64x128x128.size a ≤ S128x128x128.size a
  inb_S576x128_S64x128_64_0 : ∀ a, (![64, 0] : Fin 2 → Nat) a + S64x128.size a ≤ S576x128.size a
  slices_S128x128x64_o127_0_0_S1x128x64 : S128x128x64.Slices ![127, 0, 0] S1x128x64
  slices_S128x128x64_o0_0_0_S127x128x64 : S128x128x64.Slices ![0, 0, 0] S127x128x64
  concatenates_S1x128x64_S127x128x64_S128x128x64_d0 : Shape.Concatenates [S1x128x64, S127x128x64] S128x128x64 0
  inb_S576x128_S64x128_128_0 : ∀ a, (![128, 0] : Fin 2 → Nat) a + S64x128.size a ≤ S576x128.size a
  inb_S576x128_S64x128_192_0 : ∀ a, (![192, 0] : Fin 2 → Nat) a + S64x128.size a ≤ S576x128.size a
  inb_S576x128_S64x128_256_0 : ∀ a, (![256, 0] : Fin 2 → Nat) a + S64x128.size a ≤ S576x128.size a
  inb_S576x128_S64x128_320_0 : ∀ a, (![320, 0] : Fin 2 → Nat) a + S64x128.size a ≤ S576x128.size a
  slices_S128x128x64_o0_127_0_S128x1x64 : S128x128x64.Slices ![0, 127, 0] S128x1x64
  slices_S128x128x64_o0_0_0_S128x127x64 : S128x128x64.Slices ![0, 0, 0] S128x127x64
  concatenates_S128x1x64_S128x127x64_S128x128x64_d1 : Shape.Concatenates [S128x1x64, S128x127x64] S128x128x64 1
  inb_S576x128_S64x128_384_0 : ∀ a, (![384, 0] : Fin 2 → Nat) a + S64x128.size a ≤ S576x128.size a
  inb_S576x128_S64x128_448_0 : ∀ a, (![448, 0] : Fin 2 → Nat) a + S64x128.size a ≤ S576x128.size a
  inb_S576x128_S64x128_512_0 : ∀ a, (![512, 0] : Fin 2 → Nat) a + S64x128.size a ≤ S576x128.size a
  inb_S128_S128_0 : ∀ a, (![0] : Fin 1 → Nat) a + S128.size a ≤ S128.size a
  h_S128 : 0 < S128.numel
  shapeCasts_S128_S1x1x128 : S128.ShapeCasts S1x1x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S16x128x128x64.size a
  hwx0_0 : ∀ i : grid0.Coords, EltTy.bits .f32 = 32 ∨ (Rect.block (s := S16x128x128x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x256.size a
  hwx0_1 : ∀ i : grid0.Coords, EltTy.bits .f32 = 32 ∨ (Rect.block (s := S576x256) S576x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S256.size a
  hwx0_2 : ∀ i : grid0.Coords, EltTy.bits .f32 = 32 ∨ (Rect.block (s := S256) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x128.size a ≤ S16x128x128x256.size a
  hwx0_3 : ∀ i : grid0.Coords, EltTy.bits .f32 = 32 ∨ (Rect.block (s := S16x128x128x256) S1x128x128x128.size (cc0_transform_3 i) (hinb0_3 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S576x256 : Shape := ⟨2, ![576, 256]⟩
abbrev S256 : Shape := ⟨1, ![256]⟩
abbrev S16x127x128x64 : Shape := ⟨4, ![16, 127, 128, 64]⟩
abbrev S16x1x128x64 : Shape := ⟨4, ![16, 1, 128, 64]⟩
abbrev S16x128x127x64 : Shape := ⟨4, ![16, 128, 127, 64]⟩
abbrev S16x128x1x64 : Shape := ⟨4, ![16, 128, 1, 64]⟩
abbrev S16x0x128x64 : Shape := ⟨4, ![16, 0, 128, 64]⟩
abbrev S16x128x0x64 : Shape := ⟨4, ![16, 128, 0, 64]⟩
abbrev S16x128x128x1x64 : Shape := ⟨5, ![16, 128, 128, 1, 64]⟩
abbrev S16x128x128x9x64 : Shape := ⟨5, ![16, 128, 128, 9, 64]⟩
abbrev S16x128x128x576 : Shape := ⟨4, ![16, 128, 128, 576]⟩
abbrev S16x128x128x256 : Shape := ⟨4, ![16, 128, 128, 256]⟩
abbrev S1x1x1x256 : Shape := ⟨4, ![1, 1, 1, 256]⟩

abbrev nBuf : Space → Nat
  | .hbm => 72
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S576x256, .f32⟩
  | .hbm, ⟨2, _⟩ => ⟨S256, .f32⟩
  | .hbm, ⟨3, _⟩ => ⟨S16x127x128x64, .f32⟩
  | .hbm, ⟨4, _⟩ => ⟨S16x1x128x64, .f32⟩
  | .hbm, ⟨5, _⟩ => ⟨S16x128x128x64, .f32⟩
  | .hbm, ⟨6, _⟩ => ⟨S16x128x127x64, .f32⟩
  | .hbm, ⟨7, _⟩ => ⟨S16x128x1x64, .f32⟩
  | .hbm, ⟨8, _⟩ => ⟨S16x128x128x64, .f32⟩
  | .hbm, ⟨9, _⟩ => ⟨S16x128x128x64, .f32⟩
  | .hbm, ⟨10, _⟩ => ⟨S16x0x128x64, .f32⟩
  | .hbm, ⟨11, _⟩ => ⟨S16x128x128x64, .f32⟩
  | .hbm, ⟨12, _⟩ => ⟨S16x128x127x64, .f32⟩
  | .hbm, ⟨13, _⟩ => ⟨S16x128x1x64, .f32⟩
  | .hbm, ⟨14, _⟩ => ⟨S16x128x128x64, .f32⟩
  | .hbm, ⟨15, _⟩ => ⟨S16x1x128x64, .f32⟩
  | .hbm, ⟨16, _⟩ => ⟨S16x127x128x64, .f32⟩
  | .hbm, ⟨17, _⟩ => ⟨S16x128x128x64, .f32⟩
  | .hbm, ⟨18, _⟩ => ⟨S16x128x127x64, .f32⟩
  | .hbm, ⟨19, _⟩ => ⟨S16x128x1x64, .f32⟩
  | .hbm, ⟨20, _⟩ => ⟨S16x128x128x64, .f32⟩
  | .hbm, ⟨21, _⟩ => ⟨S16x127x128x64, .f32⟩
  | .hbm, ⟨22, _⟩ => ⟨S16x1x128x64, .f32⟩
  | .hbm, ⟨23, _⟩ => ⟨S16x128x128x64, .f32⟩
  | .hbm, ⟨24, _⟩ => ⟨S16x128x128x64, .f32⟩
  | .hbm, ⟨25, _⟩ => ⟨S16x128x0x64, .f32⟩
  | .hbm, ⟨26, _⟩ => ⟨S16x128x128x64, .f32⟩
  | .hbm, ⟨27, _⟩ => ⟨S16x128x128x64, .f32⟩
  | .hbm, ⟨28, _⟩ => ⟨S16x0x128x64, .f32⟩
  | .hbm, ⟨29, _⟩ => ⟨S16x128x128x64, .f32⟩
  | .hbm, ⟨30, _⟩ => ⟨S16x128x128x64, .f32⟩
  | .hbm, ⟨31, _⟩ => ⟨S16x128x0x64, .f32⟩
  | .hbm, ⟨32, _⟩ => ⟨S16x128x128x64, .f32⟩
  | .hbm, ⟨33, _⟩ => ⟨S16x1x128x64, .f32⟩
  | .hbm, ⟨34, _⟩ => ⟨S16x127x128x64, .f32⟩
  | .hbm, ⟨35, _⟩ => ⟨S16x128x128x64, .f32⟩
  | .hbm, ⟨36, _⟩ => ⟨S16x128x128x64, .f32⟩
  | .hbm, ⟨37, _⟩ => ⟨S16x128x0x64, .f32⟩
  | .hbm, ⟨38, _⟩ => ⟨S16x128x128x64, .f32⟩
  | .hbm, ⟨39, _⟩ => ⟨S16x127x128x64, .f32⟩
  | .hbm, ⟨40, _⟩ => ⟨S16x1x128x64, .f32⟩
  | .hbm, ⟨41, _⟩ => ⟨S16x128x128x64, .f32⟩
  | .hbm, ⟨42, _⟩ => ⟨S16x128x1x64, .f32⟩
  | .hbm, ⟨43, _⟩ => ⟨S16x128x127x64, .f32⟩
  | .hbm, ⟨44, _⟩ => ⟨S16x128x128x64, .f32⟩
  | .hbm, ⟨45, _⟩ => ⟨S16x128x128x64, .f32⟩
  | .hbm, ⟨46, _⟩ => ⟨S16x0x128x64, .f32⟩
  | .hbm, ⟨47, _⟩ => ⟨S16x128x128x64, .f32⟩
  | .hbm, ⟨48, _⟩ => ⟨S16x128x1x64, .f32⟩
  | .hbm, ⟨49, _⟩ => ⟨S16x128x127x64, .f32⟩
  | .hbm, ⟨50, _⟩ => ⟨S16x128x128x64, .f32⟩
  | .hbm, ⟨51, _⟩ => ⟨S16x1x128x64, .f32⟩
  | .hbm, ⟨52, _⟩ => ⟨S16x127x128x64, .f32⟩
  | .hbm, ⟨53, _⟩ => ⟨S16x128x128x64, .f32⟩
  | .hbm, ⟨54, _⟩ => ⟨S16x128x1x64, .f32⟩
  | .hbm, ⟨55, _⟩ => ⟨S16x128x127x64, .f32⟩
  | .hbm, ⟨56, _⟩ => ⟨S16x128x128x64, .f32⟩
  | .hbm, ⟨57, _⟩ => ⟨S16x128x128x1x64, .f32⟩
  | .hbm, ⟨58, _⟩ => ⟨S16x128x128x1x64, .f32⟩
  | .hbm, ⟨59, _⟩ => ⟨S16x128x128x1x64, .f32⟩
  | .hbm, ⟨60, _⟩ => ⟨S16x128x128x1x64, .f32⟩
  | .hbm, ⟨61, _⟩ => ⟨S16x128x128x1x64, .f32⟩
  | .hbm, ⟨62, _⟩ => ⟨S16x128x128x1x64, .f32⟩
  | .hbm, ⟨63, _⟩ => ⟨S16x128x128x1x64, .f32⟩
  | .hbm, ⟨64, _⟩ => ⟨S16x128x128x1x64, .f32⟩
  | .hbm, ⟨65, _⟩ => ⟨S16x128x128x1x64, .f32⟩
  | .hbm, ⟨66, _⟩ => ⟨S16x128x128x9x64, .f32⟩
  | .hbm, ⟨67, _⟩ => ⟨S16x128x128x576, .f32⟩
  | .hbm, ⟨68, _⟩ => ⟨S16x128x128x256, .f32⟩
  | .hbm, ⟨69, _⟩ => ⟨S1x1x1x256, .f32⟩
  | .hbm, ⟨70, _⟩ => ⟨S16x128x128x256, .f32⟩
  | .hbm, ⟨71, _⟩ => ⟨S16x128x128x256, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v1 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_v2 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v3 : Ref sig .tc := ⟨.hbm, 26, rfl⟩
abbrev main_call4_v0 : Ref sig .tc := ⟨.hbm, 27, rfl⟩
abbrev main_call4_v1 : Ref sig .tc := ⟨.hbm, 28, rfl⟩
abbrev main_call4_v2 : Ref sig .tc := ⟨.hbm, 29, rfl⟩
abbrev main_call4_v3 : Ref sig .tc := ⟨.hbm, 30, rfl⟩
abbrev main_call4_v4 : Ref sig .tc := ⟨.hbm, 31, rfl⟩
abbrev main_v4 : Ref sig .tc := ⟨.hbm, 32, rfl⟩
abbrev main_call5_v0 : Ref sig .tc := ⟨.hbm, 33, rfl⟩
abbrev main_call5_v1 : Ref sig .tc := ⟨.hbm, 34, rfl⟩
abbrev main_call5_v2 : Ref sig .tc := ⟨.hbm, 35, rfl⟩
abbrev main_call5_v3 : Ref sig .tc := ⟨.hbm, 36, rfl⟩
abbrev main_call5_v4 : Ref sig .tc := ⟨.hbm, 37, rfl⟩
abbrev main_v5 : Ref sig .tc := ⟨.hbm, 38, rfl⟩
abbrev main_call6_v0 : Ref sig .tc := ⟨.hbm, 39, rfl⟩
abbrev main_call6_v1 : Ref sig .tc := ⟨.hbm, 40, rfl⟩
abbrev main_call6_v2 : Ref sig .tc := ⟨.hbm, 41, rfl⟩
abbrev main_call6_v3 : Ref sig .tc := ⟨.hbm, 42, rfl⟩
abbrev main_call6_v4 : Ref sig .tc := ⟨.hbm, 43, rfl⟩
abbrev main_v6 : Ref sig .tc := ⟨.hbm, 44, rfl⟩
abbrev main_call7_v0 : Ref sig .tc := ⟨.hbm, 45, rfl⟩
abbrev main_call7_v1 : Ref sig .tc := ⟨.hbm, 46, rfl⟩
abbrev main_call7_v2 : Ref sig .tc := ⟨.hbm, 47, rfl⟩
abbrev main_call7_v3 : Ref sig .tc := ⟨.hbm, 48, rfl⟩
abbrev main_call7_v4 : Ref sig .tc := ⟨.hbm, 49, rfl⟩
abbrev main_v7 : Ref sig .tc := ⟨.hbm, 50, rfl⟩
abbrev main_call8_v0 : Ref sig .tc := ⟨.hbm, 51, rfl⟩
abbrev main_call8_v1 : Ref sig .tc := ⟨.hbm, 52, rfl⟩
abbrev main_call8_v2 : Ref sig .tc := ⟨.hbm, 53, rfl⟩
abbrev main_call8_v3 : Ref sig .tc := ⟨.hbm, 54, rfl⟩
abbrev main_call8_v4 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩

abbrev nD : Nat := 1
abbrev τ : Topo := Topo.v7x

variable {F : FTy → Type} [FloatOps F]

class Facts₀ : Prop where
  slices_S16x128x128x64_S16x127x128x64_0_1_0_0 : S16x128x128x64.Slices ![0, 1, 0, 0] S16x127x128x64
  slices_S16x128x128x64_S16x1x128x64_0_0_0_0 : S16x128x128x64.Slices ![0, 0, 0, 0] S16x1x128x64
  concatenates_S16x127x128x64_S16x1x128x64_S16x128x128x64_d1 : Shape.Concatenates [S16x127x128x64, S16x1x128x64] S16x128x128x64 1
  slices_S16x128x128x64_S16x128x127x64_0_0_1_0 : S16x128x128x64.Slices ![0, 0, 1, 0] S16x128x127x64
  slices_S16x128x128x64_S16x128x1x64_0_0_0_0 : S16x128x128x64.Slices ![0, 0, 0, 0] S16x128x1x64
  concatenates_S16x128x127x64_S16x128x1x64_S16x128x128x64_d2 : Shape.Concatenates [S16x128x127x64, S16x128x1x64] S16x128x128x64 2
  slices_S16x128x128x64_S16x128x128x64_0_0_0_0 : S16x128x128x64.Slices ![0, 0, 0, 0] S16x128x128x64
  slices_S16x128x128x64_S16x0x128x64_0_0_0_0 : S16x128x128x64.Slices ![0, 0, 0, 0] S16x0x128x64
  concatenates_S16x128x128x64_S16x0x128x64_S16x128x128x64_d1 : Shape.Concatenates [S16x128x128x64, S16x0x128x64] S16x128x128x64 1
  slices_S16x128x128x64_S16x1x128x64_0_127_0_0 : S16x128x128x64.Slices ![0, 127, 0, 0] S16x1x128x64
  slices_S16x128x128x64_S16x127x128x64_0_0_0_0 : S16x128x128x64.Slices ![0, 0, 0, 0] S16x127x128x64
  concatenates_S16x1x128x64_S16x127x128x64_S16x128x128x64_d1 : Shape.Concatenates [S16x1x128x64, S16x127x128x64] S16x128x128x64 1
  slices_S16x128x128x64_S16x128x0x64_0_0_0_0 : S16x128x128x64.Slices ![0, 0, 0, 0] S16x128x0x64
  concatenates_S16x128x128x64_S16x128x0x64_S16x128x128x64_d2 : Shape.Concatenates [S16x128x128x64, S16x128x0x64] S16x128x128x64 2
  slices_S16x128x128x64_S16x128x1x64_0_0_127_0 : S16x128x128x64.Slices ![0, 0, 127, 0] S16x128x1x64
  slices_S16x128x128x64_S16x128x127x64_0_0_0_0 : S16x128x128x64.Slices ![0, 0, 0, 0] S16x128x127x64
  concatenates_S16x128x1x64_S16x128x127x64_S16x128x128x64_d2 : Shape.Concatenates [S16x128x1x64, S16x128x127x64] S16x128x128x64 2
  bcast_S16x128x128x64_S16x128x128x1x64_0_1_2_4 : S16x128x128x64.BroadcastsInDim S16x128x128x1x64 (![0, 1, 2, 4] : Fin 4 → Fin S16x128x128x1x64.rank)
  concatenates_S16x128x128x1x64_S16x128x128x1x64_S16x128x128x1x64_S16x128x128x1x64_S16x128x128x1x64_S16x128x128x1x64_S16x128x128x1x64_S16x128x128x1x64_S16x128x128x1x64_S16x128x128x9x64_d3 : Shape.Concatenates [S16x128x128x1x64, S16x128x128x1x64, S16x128x128x1x64, S16x128x128x1x64, S16x128x128x1x64, S16x128x128x1x64, S16x128x128x1x64, S16x128x128x1x64, S16x128x128x1x64] S16x128x128x9x64 3
  shapeCasts_S16x128x128x9x64_S16x128x128x576 : S16x128x128x9x64.ShapeCasts S16x128x128x576
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  dot_S16x128x128x576_S576x256_S16x128x128x256_3_0_012_1_n_n_wf : DotDims.WF S16x128x128x576 S576x256 S16x128x128x256 [3] [0] [0, 1, 2] [1] [] []

variable [Facts₀]

def dot_S16x128x128x576_S576x256_S16x128x128x256_3_0_012_1_n_n : DotDims S16x128x128x576 S576x256 S16x128x128x256 where
  lhsContracting := [3]
  rhsContracting := [0]
  lhsNonContracting := [0, 1, 2]
  rhsNonContracting := [1]
  lhsBatch := []
  rhsBatch := []
  wf := dot_S16x128x128x576_S576x256_S16x128x128x256_3_0_012_1_n_n_wf

class Facts : Prop extends Facts₀ where

variable [Facts]
-- ==== Proof.ConvSpec.lean ====
/-
  The circular 3×3 convolution as one function of its arguments.

  For an image batch `x [B, 128, 128, 64]`, a weight matrix `k [576, Fo]` and a bias `[Fo]`, the result at
  `(b, h, w, f)` is the bias at `f` plus, over the nine taps `s = 0 … 8` taken in order, the sum over the 64
  channels `c` of `x (b, h', w', c) · k (64 s + c, f)`, where `(h', w')` is `(h, w)` moved back circularly by the
  tap's shift: tap `s` shifts rows by `s % 3 - 1` and columns by `s / 3 - 1`.  The nine partial sums are added one
  after the other onto the zero word, the order in which an accumulator receives them; `sum_term_eq_accum` says
  that this is the single sum over all `576 = 9 · 64` pairs (tap, channel), which is how a dense layer over the
  stacked, flattened taps computes it.  Addition of extended reals is commutative and associative, so no
  finiteness is needed anywhere.
-/
import Idealize.ShloMosaic.PureOps.Ideal
import Idealize.ShloMosaic.PureOps.Ideal.Laws
import Idealize.ShloMosaic.Lib.ValueIdx

noncomputable section

namespace Cert.Conv

open Idealize.ShloMosaic Idealize.ShloMosaic.ValueIdx

/-- The coordinate a circular roll by `d - 1` (so `d = 0, 1, 2` are the shifts `-1, 0, +1`) along an axis of extent 128
    reads for position `i`: `(i - (d - 1)) mod 128`. -/
def rollSrc (d : ℕ) (i : Fin 128) : Fin 128 := ⟨(i.val + 129 - d) % 128, Nat.mod_lt _ (by norm_num)⟩

theorem rollSrc_val (d : ℕ) (i : Fin 128) : (rollSrc d i).val = (i.val + 129 - d) % 128 := rfl

/-- The middle case reads the position itself. -/
theorem rollSrc_one (i : Fin 128) : rollSrc 1 i = i :=
  Fin.ext (by show (i.val + 129 - 1) % 128 = i.val; have := i.isLt; omega)

variable {B Fo : ℕ}

/-- The product the pair `kk = 64 s + c` (tap `s`, channel `c`) contributes at `(b, h, w, f)`. -/
def term (x : (⟨4, ![B, 128, 128, 64]⟩ : Shape).Idx → EReal) (k : (⟨2, ![576, Fo]⟩ : Shape).Idx → EReal)
    (b : Fin B) (h w : Fin 128) (f : Fin Fo) (kk : ℕ) : EReal :=
  x (ix4 b (rollSrc ((kk / 64) % 3) h) (rollSrc ((kk / 64) / 3) w) ⟨kk % 64, Nat.mod_lt _ (by norm_num)⟩)
    * k (ix2 ⟨kk % 576, Nat.mod_lt _ (by norm_num)⟩ f)

/-- Tap `s` at `(b, h, w, f)`: the sum over the 64 channels. -/
def tap (x : (⟨4, ![B, 128, 128, 64]⟩ : Shape).Idx → EReal) (k : (⟨2, ![576, Fo]⟩ : Shape).Idx → EReal)
    (s : ℕ) (b : Fin B) (h w : Fin 128) (f : Fin Fo) : EReal :=
  ∑ c : Fin 64, term x k b h w f (s * 64 + c.val)

/-- The first `n` taps added in order onto the zero word. -/
def accum (x : (⟨4, ![B, 128, 128, 64]⟩ : Shape).Idx → EReal) (k : (⟨2, ![576, Fo]⟩ : Shape).Idx → EReal)
    (b : Fin B) (h w : Fin 128) (f : Fin Fo) : ℕ → EReal
  | 0 => Ideal.ofBits .f32 0x00000000#32
  | n + 1 => accum x k b h w f n + tap x k n b h w f

/-- The convolution: nine taps and the bias. -/
def conv (x : (⟨4, ![B, 128, 128, 64]⟩ : Shape).Idx → EReal) (k : (⟨2, ![576, Fo]⟩ : Shape).Idx → EReal)
    (bias : (⟨1, ![Fo]⟩ : Shape).Idx → EReal) : (⟨4, ![B, 128, 128, Fo]⟩ : Shape).Idx → EReal :=
  fun j => accum x k (j 0) (j 1) (j 2) (j 3) 9 + bias (ix1 (j 3))

theorem conv_apply (x : (⟨4, ![B, 128, 128, 64]⟩ : Shape).Idx → EReal) (k : (⟨2, ![576, Fo]⟩ : Shape).Idx → EReal)
    (bias : (⟨1, ![Fo]⟩ : Shape).Idx → EReal) (b : Fin B) (h w : Fin 128) (f : Fin Fo) :
    conv x k bias (ix4 b h w f) = accum x k b h w f 9 + bias (ix1 f) := rfl

/-- A tap written over the rolled image and the tap's 64 rows of the weights (for `s < 9`). -/
theorem tap_eq (x : (⟨4, ![B, 128, 128, 64]⟩ : Shape).Idx → EReal) (k : (⟨2, ![576, Fo]⟩ : Shape).Idx → EReal)
    (s : ℕ) (hs : s < 9) (b : Fin B) (h w : Fin 128) (f : Fin Fo) :
    tap x k s b h w f = ∑ c : Fin 64, x (ix4 b (rollSrc (s % 3) h) (rollSrc (s / 3) w) c)
      * k (ix2 ⟨s * 64 + c.val, by have := c.isLt; omega⟩ f) := by
  unfold tap term
  refine Finset.sum_congr rfl fun c _ => ?_
  have hc := c.isLt
  have e1 : (s * 64 + c.val) / 64 = s := by omega
  have e2 : (s * 64 + c.val) % 64 = c.val := by omega
  have e3 : (s * 64 + c.val) % 576 = s * 64 + c.val := by omega
  simp only [e1, e2, e3]

/-- The taps depend on the image only through batch entry `b` and on the weights only through column `f`. -/
theorem accum_congr {B' Fo' : ℕ} (x : (⟨4, ![B, 128, 128, 64]⟩ : Shape).Idx → EReal) (k : (⟨2, ![576, Fo]⟩ : Shape).Idx → EReal)
    (x' : (⟨4, ![B', 128, 128, 64]⟩ : Shape).Idx → EReal) (k' : (⟨2, ![576, Fo']⟩ : Shape).Idx → EReal)
    (b : Fin B) (b' : Fin B') (f : Fin Fo) (f' : Fin Fo')
    (hx : ∀ (h w : Fin 128) (c : Fin 64), x (ix4 b h w c) = x' (ix4 b' h w c))
    (hk : ∀ r : Fin 576, k (ix2 r f) = k' (ix2 r f')) (h w : Fin 128) (n : ℕ) :
    accum x k b h w f n = accum x' k' b' h w f' n := by
  induction n with
  | zero => rfl
  | succ n ih =>
    show accum x k b h w f n + tap x k n b h w f = accum x' k' b' h w f' n + tap x' k' n b' h w f'
    rw [ih]
    congr 1
    unfold tap term
    exact Finset.sum_congr rfl fun c _ => by rw [hx, hk]

/-- One sum over all 576 (tap, channel) pairs is the nine taps added in order onto zero. -/
theorem sum_term_eq_accum (x : (⟨4, ![B, 128, 128, 64]⟩ : Shape).Idx → EReal) (k : (⟨2, ![576, Fo]⟩ : Shape).Idx → EReal)
    (b : Fin B) (h w : Fin 128) (f : Fin Fo) :
    (∑ kk : Fin 576, term x k b h w f kk.val) = accum x k b h w f 9 := by
  have step : ∀ n : ℕ, (∑ kk ∈ Finset.range (n * 64), term x k b h w f kk) = accum x k b h w f n := by
    intro n
    induction n with
    | zero => simp [accum, Ideal.ofBits_zero_f32]
    | succ n ih =>
      rw [show (n + 1) * 64 = n * 64 + 64 by ring, Finset.sum_range_add, ih]
      show _ = accum x k b h w f n + tap x k n b h w f
      refine congrArg (accum x k b h w f n + ·) ?_
      unfold tap
      exact (Fin.sum_univ_eq_sum_range (fun c => term x k b h w f (n * 64 + c)) 64).symm
  rw [Fin.sum_univ_eq_sum_range (fun kk => term x k b h w f kk) 576]
  exact step 9

end Cert.Conv

end
-- ==== Proof.KRolls.lean ====
/-
  The kernel's rolled images read at an index.

  The body casts its image block `x0 [1, 128, 128, 64]` to `[128, 128, 64]` (`k0_pay5`; the change of float format is
  the identity on the extended reals) and, for each tap, rolls it circularly along the rows and the columns by
  slicing off one row (or column) and concatenating it at the other end.  Read at `(h, w, c)`, each rolled image
  is the cast image at `(rollSrc dH h, rollSrc dW w, c)` for the tap's pair of shifts.
-/
import proofs.«176972_j77137612636252_1_alg».proof.Proof.Gen.KernelIdeal.Skeleton
import proofs.«176972_j77137612636252_1_alg».proof.Proof.ConvSpec
import Idealize.ShloMosaic.Lib.Pipeline.Value
import Idealize.ShloMosaic.Lib.ValueLayout

noncomputable section

namespace Cert.KernelIdeal.Rolls

open Cert.KernelIdeal Cert.KernelIdeal.Gen Idealize.ShloMosaic Idealize.ShloMosaic.ValueIdx Cert.Conv

/-! ## One circular shift along one axis

A shift by one position is a two-piece concatenation of slices.  An index falls in the first piece or in the second
according to its coordinate on the joined axis; in either case the slice's offset brings it back to the source position
`rollSrc d`. -/

section Generic
variable {α : Type}

/-- Rows shifted by -1: rows `1 .. 127` followed by row `0`. -/
private theorem rowsM_apply (v : S128x128x64.Idx → α)
    (h1 : S128x128x64.Slices ![1, 0, 0] S127x128x64) (h2 : S128x128x64.Slices ![0, 0, 0] S1x128x64)
    (hc : Shape.Concatenates [S127x128x64, S1x128x64] S128x128x64 0) (h w : Fin 128) (c : Fin 64) :
    concatenate S128x128x64 0 [⟨S127x128x64, extractStridedSlice S127x128x64 ![1, 0, 0] v h1⟩,
      ⟨S1x128x64, extractStridedSlice S1x128x64 ![0, 0, 0] v h2⟩] hc (ix3 h w c) = v (ix3 (rollSrc 0 h) w c) := by
  have hlt := h.isLt
  by_cases hh : h.val < 127
  · refine (concatenate_pair_apply_left (t := S128x128x64) (s₁ := S127x128x64) (s₂ := S1x128x64) (0 : Fin 3) _ _ hc (ix3 h w c) rfl (ix3 (⟨h.val, hh⟩ : Fin 127) w c) (fun b => ?_)).trans ?_
    · match b with
      | ⟨0, _⟩ => rfl
      | ⟨1, _⟩ => rfl
      | ⟨2, _⟩ => rfl
    · refine extractStridedSlice_apply _ v h1 _ _ (fun a => ?_)
      match a with
      | ⟨0, _⟩ => show (h.val + 129 - 0) % 128 = 1 + h.val; omega
      | ⟨1, _⟩ => exact (Nat.zero_add _).symm
      | ⟨2, _⟩ => exact (Nat.zero_add _).symm
  · refine (concatenate_pair_apply_right (t := S128x128x64) (s₁ := S127x128x64) (s₂ := S1x128x64) (0 : Fin 3) _ _ hc (ix3 h w c) rfl rfl (ix3 (⟨0, by omega⟩ : Fin 1) w c) (fun b => ?_) ?_).trans ?_
    · match b with
      | ⟨0, _⟩ => exact fun hne => absurd rfl hne
      | ⟨1, _⟩ => exact fun _ => rfl
      | ⟨2, _⟩ => exact fun _ => rfl
    · show 0 + 127 = h.val; omega
    · refine extractStridedSlice_apply _ v h2 _ _ (fun a => ?_)
      match a with
      | ⟨0, _⟩ => show (h.val + 129 - 0) % 128 = 0 + 0; omega
      | ⟨1, _⟩ => exact (Nat.zero_add _).symm
      | ⟨2, _⟩ => exact (Nat.zero_add _).symm

/-- Rows shifted by +1: row `127` followed by rows `0 .. 126`. -/
private theorem rowsP_apply (v : S128x128x64.Idx → α)
    (h1 : S128x128x64.Slices ![127, 0, 0] S1x128x64) (h2 : S128x128x64.Slices ![0, 0, 0] S127x128x64)
    (hc : Shape.Concatenates [S1x128x64, S127x128x64] S128x128x64 0) (h w : Fin 128) (c : Fin 64) :
    concatenate S128x128x64 0 [⟨S1x128x64, extractStridedSlice S1x128x64 ![127, 0, 0] v h1⟩,
      ⟨S127x128x64, extractStridedSlice S127x128x64 ![0, 0, 0] v h2⟩] hc (ix3 h w c) = v (ix3 (rollSrc 2 h) w c) := by
  have hlt := h.isLt
  by_cases hh : h.val < 1
  · refine (concatenate_pair_apply_left (t := S128x128x64) (s₁ := S1x128x64) (s₂ := S127x128x64) (0 : Fin 3) _ _ hc (ix3 h w c) rfl (ix3 (⟨h.val, hh⟩ : Fin 1) w c) (fun b => ?_)).trans ?_
    · match b with
      | ⟨0, _⟩ => rfl
      | ⟨1, _⟩ => rfl
      | ⟨2, _⟩ => rfl
    · refine extractStridedSlice_apply _ v h1 _ _ (fun a => ?_)
      match a with
      | ⟨0, _⟩ => show (h.val + 129 - 2) % 128 = 127 + h.val; omega
      | ⟨1, _⟩ => exact (Nat.zero_add _).symm
      | ⟨2, _⟩ => exact (Nat.zero_add _).symm
  · refine (concatenate_pair_apply_right (t := S128x128x64) (s₁ := S1x128x64) (s₂ := S127x128x64) (0 : Fin 3) _ _ hc (ix3 h w c) rfl rfl (ix3 (⟨h.val - 1, by omega⟩ : Fin 127) w c) (fun b => ?_) ?_).trans ?_
    · match b with
      | ⟨0, _⟩ => exact fun hne => absurd rfl hne
      | ⟨1, _⟩ => exact fun _ => rfl
      | ⟨2, _⟩ => exact fun _ => rfl
    · show h.val - 1 + 1 = h.val; omega
    · refine extractStridedSlice_apply _ v h2 _ _ (fun a => ?_)
      match a with
      | ⟨0, _⟩ => show (h.val + 129 - 2) % 128 = 0 + (h.val - 1); omega
      | ⟨1, _⟩ => exact (Nat.zero_add _).symm
      | ⟨2, _⟩ => exact (Nat.zero_add _).symm

/-- Columns shifted by -1: columns `1 .. 127` followed by column `0`. -/
private theorem colsM_apply (v : S128x128x64.Idx → α)
    (h1 : S128x128x64.Slices ![0, 1, 0] S128x127x64) (h2 : S128x128x64.Slices ![0, 0, 0] S128x1x64)
    (hc : Shape.Concatenates [S128x127x64, S128x1x64] S128x128x64 1) (h w : Fin 128) (c : Fin 64) :
    concatenate S128x128x64 1 [⟨S128x127x64, extractStridedSlice S128x127x64 ![0, 1, 0] v h1⟩,
      ⟨S128x1x64, extractStridedSlice S128x1x64 ![0, 0, 0] v h2⟩] hc (ix3 h w c) = v (ix3 h (rollSrc 0 w) c) := by
  have hlt := w.isLt
  by_cases hh : w.val < 127
  · refine (concatenate_pair_apply_left (t := S128x128x64) (s₁ := S128x127x64) (s₂ := S128x1x64) (1 : Fin 3) _ _ hc (ix3 h w c) rfl (ix3 h (⟨w.val, hh⟩ : Fin 127) c) (fun b => ?_)).trans ?_
    · match b with
      | ⟨0, _⟩ => rfl
      | ⟨1, _⟩ => rfl
      | ⟨2, _⟩ => rfl
    · refine extractStridedSlice_apply _ v h1 _ _ (fun a => ?_)
      match a with
      | ⟨0, _⟩ => exact (Nat.zero_add _).symm
      | ⟨1, _⟩ => show (w.val + 129 - 0) % 128 = 1 + w.val; omega
      | ⟨2, _⟩ => exact (Nat.zero_add _).symm
  · refine (concatenate_pair_apply_right (t := S128x128x64) (s₁ := S128x127x64) (s₂ := S128x1x64) (1 : Fin 3) _ _ hc (ix3 h w c) rfl rfl (ix3 h (⟨0, by omega⟩ : Fin 1) c) (fun b => ?_) ?_).trans ?_
    · match b with
      | ⟨0, _⟩ => exact fun _ => rfl
      | ⟨1, _⟩ => exact fun hne => absurd rfl hne
      | ⟨2, _⟩ => exact fun _ => rfl
    · show 0 + 127 = w.val; omega
    · refine extractStridedSlice_apply _ v h2 _ _ (fun a => ?_)
      match a with
      | ⟨0, _⟩ => exact (Nat.zero_add _).symm
      | ⟨1, _⟩ => show (w.val + 129 - 0) % 128 = 0 + 0; omega
      | ⟨2, _⟩ => exact (Nat.zero_add _).symm

/-- Columns shifted by +1: column `127` followed by columns `0 .. 126`. -/
private theorem colsP_apply (v : S128x128x64.Idx → α)
    (h1 : S128x128x64.Slices ![0, 127, 0] S128x1x64) (h2 : S128x128x64.Slices ![0, 0, 0] S128x127x64)
    (hc : Shape.Concatenates [S128x1x64, S128x127x64] S128x128x64 1) (h w : Fin 128) (c : Fin 64) :
    concatenate S128x128x64 1 [⟨S128x1x64, extractStridedSlice S128x1x64 ![0, 127, 0] v h1⟩,
      ⟨S128x127x64, extractStridedSlice S128x127x64 ![0, 0, 0] v h2⟩] hc (ix3 h w c) = v (ix3 h (rollSrc 2 w) c) := by
  have hlt := w.isLt
  by_cases hh : w.val < 1
  · refine (concatenate_pair_apply_left (t := S128x128x64) (s₁ := S128x1x64) (s₂ := S128x127x64) (1 : Fin 3) _ _ hc (ix3 h w c) rfl (ix3 h (⟨w.val, hh⟩ : Fin 1) c) (fun b => ?_)).trans ?_
    · match b with
      | ⟨0, _⟩ => rfl
      | ⟨1, _⟩ => rfl
      | ⟨2, _⟩ => rfl
    · refine extractStridedSlice_apply _ v h1 _ _ (fun a => ?_)
      match a with
      | ⟨0, _⟩ => exact (Nat.zero_add _).symm
      | ⟨1, _⟩ => show (w.val + 129 - 2) % 128 = 127 + w.val; omega
      | ⟨2, _⟩ => exact (Nat.zero_add _).symm
  · refine (concatenate_pair_apply_right (t := S128x128x64) (s₁ := S128x1x64) (s₂ := S128x127x64) (1 : Fin 3) _ _ hc (ix3 h w c) rfl rfl (ix3 h (⟨w.val - 1, by omega⟩ : Fin 127) c) (fun b => ?_) ?_).trans ?_
    · match b with
      | ⟨0, _⟩ => exact fun _ => rfl
      | ⟨1, _⟩ => exact fun hne => absurd rfl hne
      | ⟨2, _⟩ => exact fun _ => rfl
    · show w.val - 1 + 1 = w.val; omega
    · refine extractStridedSlice_apply _ v h2 _ _ (fun a => ?_)
      match a with
      | ⟨0, _⟩ => exact (Nat.zero_add _).symm
      | ⟨1, _⟩ => show (w.val + 129 - 2) % 128 = 0 + (w.val - 1); omega
      | ⟨2, _⟩ => exact (Nat.zero_add _).symm

end Generic

/-! ## The payloads -/

/-- The cast image block. -/
theorem base_apply (x0 : Vec Ideal S1x128x128x64 .f32) (h w : Fin 128) (c : Fin 64) :
    k0_pay5 (F := Ideal) x0 (ix3 h w c) = x0 (ix4 0 h w c) := by
  unfold k0_pay5
  exact shapeCast_1abc_abc_apply x0 shapeCasts_S1x128x128x64_S128x128x64 h w c

/-- Tap 0: rows and columns both shifted by -1. -/
theorem roll0_apply (x0 : Vec Ideal S1x128x128x64 .f32) (h w : Fin 128) (c : Fin 64) :
    k0_pay7 (F := Ideal) x0 (ix3 h w c) = x0 (ix4 0 (rollSrc 0 h) (rollSrc 0 w) c) := by
  unfold k0_pay7
  refine (colsM_apply _ _ _ _ h w c).trans ?_
  refine (rowsM_apply _ _ _ _ h (rollSrc 0 w) c).trans ?_
  exact base_apply x0 (rollSrc 0 h) (rollSrc 0 w) c

/-- Tap 1: columns shifted by -1. -/
theorem roll1_apply (v : FVec Ideal S128x128x64 .bf16) (h w : Fin 128) (c : Fin 64) :
    k0_pay12 (F := Ideal) v (ix3 h w c) = v (ix3 h (rollSrc 0 w) c) := by
  unfold k0_pay12
  exact colsM_apply v _ _ _ h w c

/-- Tap 2: rows shifted by +1, columns by -1. -/
theorem roll2_apply (v : FVec Ideal S128x128x64 .bf16) (h w : Fin 128) (c : Fin 64) :
    k0_pay16 (F := Ideal) v (ix3 h w c) = v (ix3 (rollSrc 2 h) (rollSrc 0 w) c) := by
  unfold k0_pay16
  refine (colsM_apply _ _ _ _ h w c).trans ?_
  exact rowsP_apply v _ _ _ h (rollSrc 0 w) c

/-- Tap 3: rows shifted by -1. -/
theorem roll3_apply (v : FVec Ideal S128x128x64 .bf16) (h w : Fin 128) (c : Fin 64) :
    k0_pay21 (F := Ideal) v (ix3 h w c) = v (ix3 (rollSrc 0 h) w c) := by
  unfold k0_pay21
  exact rowsM_apply v _ _ _ h w c

/-- Tap 5: rows shifted by +1. -/
theorem roll5_apply (v : FVec Ideal S128x128x64 .bf16) (h w : Fin 128) (c : Fin 64) :
    k0_pay29 (F := Ideal) v (ix3 h w c) = v (ix3 (rollSrc 2 h) w c) := by
  unfold k0_pay29
  exact rowsP_apply v _ _ _ h w c

/-- Tap 6: rows shifted by -1, columns by +1. -/
theorem roll6_apply (v : FVec Ideal S128x128x64 .bf16) (h w : Fin 128) (c : Fin 64) :
    k0_pay34 (F := Ideal) v (ix3 h w c) = v (ix3 (rollSrc 0 h) (rollSrc 2 w) c) := by
  unfold k0_pay34
  refine (colsP_apply _ _ _ _ h w c).trans ?_
  exact rowsM_apply v _ _ _ h (rollSrc 2 w) c

/-- Tap 7: columns shifted by +1. -/
theorem roll7_apply (v : FVec Ideal S128x128x64 .bf16) (h w : Fin 128) (c : Fin 64) :
    k0_pay39 (F := Ideal) v (ix3 h w c) = v (ix3 h (rollSrc 2 w) c) := by
  unfold k0_pay39
  exact colsP_apply v _ _ _ h w c

/-- Tap 8: rows and columns both shifted by +1. -/
theorem roll8_apply (v : FVec Ideal S128x128x64 .bf16) (h w : Fin 128) (c : Fin 64) :
    k0_pay43 (F := Ideal) v (ix3 h w c) = v (ix3 (rollSrc 2 h) (rollSrc 2 w) c) := by
  unfold k0_pay43
  refine (colsP_apply _ _ _ _ h w c).trans ?_
  exact rowsP_apply v _ _ _ h (rollSrc 2 w) c

end Cert.KernelIdeal.Rolls

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«176972_j77137612636252_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«176972_j77137612636252_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KHalf.lean ====
/-
  One half-image product of the kernel read at an index.

  For each tap the body takes 64 rows (the upper or the lower half, `o = 0` or `o = 64`) of the rolled image
  `R [128, 128, 64]`, flattens them to `[8192, 64]`, multiplies by the tap's 64 weight rows `K [64, 128]` into a zero
  accumulator and unflattens the product to `[64, 128, 128]`.  At `(p, w, f)` that is the sum over the 64
  channels `c` of `R (p + o, w, c) · K (c, f)`: row `128 p + w` of the flattened half is `(p, w)`, and the change of
  float format is the identity on the extended reals.
-/
import proofs.«176972_j77137612636252_1_alg».proof.Proof.Gen.KernelIdeal.Skeleton
import proofs.«176972_j77137612636252_1_alg».proof.Proof.ConvSpec
import proofs.«176972_j77137612636252_1_alg».proof.Proof.LibPlainDot
import Idealize.ShloMosaic.Lib.Pipeline.Value
import Idealize.ShloMosaic.Lib.ValueLayout
import Idealize.ShloMosaic.PureOps.Ideal.Laws

noncomputable section

namespace Cert.KernelIdeal.Half

open Cert.KernelIdeal Cert.KernelIdeal.Gen Idealize.ShloMosaic Idealize.ShloMosaic.ValueIdx Cert.Conv

/-- The dimension numbers of the half-image product are those of a plain matrix product. -/
theorem half_plainDot : Cert.DenseLayer.PlainDot (a := 8192) (K := 64) (N := 128) dot_S8192x64_S64x128_S8192x128_1_0_0_1_n_n :=
  Cert.DenseLayer.plainDot_of_axes _ rfl rfl rfl rfl rfl rfl

/-- Row `128 p + w` of the flattened half is the half's `(p, w)`, which is row `o + p` of the image. -/
theorem half_rows (R : FVec Ideal S128x128x64 .bf16) (o : ℕ)
    (hs : S128x128x64.Slices ![o, 0, 0] S64x128x64)
    (p : Fin 64) (w : Fin 128) (c : Fin 64) (h : Fin 128) (hh : h.val = o + p.val)
    (r : Fin 8192) (hr : r.val = 128 * p.val + w.val) :
    shapeCast S8192x64 (extractStridedSlice S64x128x64 ![o, 0, 0] R hs) shapeCasts_S64x128x64_S8192x64 (ix2 r c)
      = R (ix3 h w c) := by
  refine (shapeCast_apply _ _ (ix2 r c) (ix3 p w c) ?_).trans ?_
  · rw [Shape.rowMajor_val_two, Shape.rowMajor_val_three]
    show (p.val * 128 + w.val) * 64 + c.val = r.val * 64 + c.val
    omega
  · exact extractStridedSlice_apply _ _ _ _ _ (fun ax => by
      match ax with
      | ⟨0, _⟩ => exact hh
      | ⟨1, _⟩ => exact (Nat.zero_add _).symm
      | ⟨2, _⟩ => exact (Nat.zero_add _).symm)

/-- The half-image product at `(p, w, f)`; `h` is the image row `p + o`. -/
theorem half_product (R : FVec Ideal S128x128x64 .bf16) (K : Vec Ideal S64x128 .f32) (o : ℕ)
    (hs : S128x128x64.Slices ![o, 0, 0] S64x128x64)
    (p : Fin 64) (w f : Fin 128) (h : Fin 128) (hh : h.val = o + p.val) :
    shapeCast S64x128x128
        (matmul dot_S8192x64_S64x128_S8192x128_1_0_0_1_n_n none
          (shapeCast S8192x64 (extractStridedSlice S64x128x64 ![o, 0, 0] R hs) shapeCasts_S64x128x64_S8192x64)
          (truncf .bf16 K bitsLt_bf16_f32) (constant S8192x128 .f32 0x00000000#32))
        shapeCasts_S8192x128_S64x128x128 (ix3 p w f)
      = ∑ c : Fin 64, R (ix3 h w c) * K (ix2 c f) := by
  have hlt : 128 * p.val + w.val < 8192 := by
    have := p.isLt; have := w.isLt; omega
  refine (shapeCast_apply _ _ (ix3 p w f) (ix2 (⟨128 * p.val + w.val, hlt⟩ : Fin 8192) f) ?_).trans ?_
  · rw [Shape.rowMajor_val_two, Shape.rowMajor_val_three]
    show (128 * p.val + w.val) * 128 + f.val = (p.val * 128 + w.val) * 128 + f.val
    omega
  · refine (Cert.DenseLayer.matmul_zero_apply half_plainDot none _ _ _).trans ?_
    show ∑ c : Fin 64, _ * _ = _
    refine Finset.sum_congr rfl fun c _ => ?_
    exact congrArg (· * K (ix2 c f)) (half_rows R o hs p w c h hh _ rfl)

end Cert.KernelIdeal.Half

end
-- ==== Proof.KPayDefs.lean ====
/-
  What one update of half the accumulator adds, as a plain function.

  The accumulator `[128, 128, 128]` is updated 64 rows at a time: rows `p` (`loRow`) or `p + 64` (`hiRow`) for
  `p < 64`.  An update for tap `s` adds, at `(h, w, f)`, the sum over the channels `c` of the image block at
  `(rollSrc (s % 3) h, rollSrc (s / 3) w, c)` times the tap's weight rows `K (c, f)`.
-/
import proofs.«176972_j77137612636252_1_alg».proof.Proof.Gen.KernelIdeal.Skeleton
import proofs.«176972_j77137612636252_1_alg».proof.Proof.ConvSpec

noncomputable section

namespace Cert.KernelIdeal.Pay

open Cert.KernelIdeal Idealize.ShloMosaic Idealize.ShloMosaic.ValueIdx Cert.Conv

/-- Row `p` of the upper half as a row of the image. -/
def loRow (p : Fin 64) : Fin 128 := ⟨p.val, by have := p.isLt; omega⟩
/-- Row `p` of the lower half as a row of the image. -/
def hiRow (p : Fin 64) : Fin 128 := ⟨p.val + 64, by have := p.isLt; omega⟩

/-- What tap `s` adds at `(h, w, f)`, over the image block `x0` and the tap's weight rows `K`. -/
def tapAt (x0 : Vec Ideal S1x128x128x64 .f32) (K : Vec Ideal S64x128 .f32) (s : ℕ) (h w f : Fin 128) : EReal :=
  ∑ c : Fin 64, x0 (ix4 0 (rollSrc (s % 3) h) (rollSrc (s / 3) w) c) * K (ix2 c f)

end Cert.KernelIdeal.Pay

end
-- ==== Proof.KPayA.lean ====
/-
  The accumulator's updates 0 to 8 (taps 0 to 4, upper half of tap 4 included) read at an index: each stored value is the
  half accumulator it loaded plus the tap's half-image product.
-/
import proofs.«176972_j77137612636252_1_alg».proof.Proof.KRolls
import proofs.«176972_j77137612636252_1_alg».proof.Proof.KHalf
import proofs.«176972_j77137612636252_1_alg».proof.Proof.KPayDefs

noncomputable section

namespace Cert.KernelIdeal.Pay

open Cert.KernelIdeal Cert.KernelIdeal.Gen Idealize.ShloMosaic Idealize.ShloMosaic.ValueIdx Cert.Conv

/-- Update 0: tap 0, the upper half. -/
theorem pay0_apply (x0 : Vec Ideal S1x128x128x64 .f32) (K : Vec Ideal S64x128 .f32) (v : Vec Ideal S64x128x128 .f32)
    (p : Fin 64) (w f : Fin 128) :
    k0_pay9 (F := Ideal) x0 K v (ix3 p w f) = (v (ix3 p w f) : EReal) + tapAt x0 K 0 (loRow p) w f := by
  unfold k0_pay9 k0_pay8
  simp only [shapeCast_self]
  refine congrArg (fun t => (v (ix3 p w f) : EReal) + t) ?_
  refine (Half.half_product (k0_pay7 x0) K 0 _ p w f (loRow p) (by show p.val = 0 + p.val; omega)).trans ?_
  unfold tapAt
  refine Finset.sum_congr rfl fun c _ => ?_
  rw [Rolls.roll0_apply]

/-- Update 1: tap 0, the lower half. -/
theorem pay1_apply (x0 : Vec Ideal S1x128x128x64 .f32) (K : Vec Ideal S64x128 .f32) (v : Vec Ideal S64x128x128 .f32)
    (p : Fin 64) (w f : Fin 128) :
    k0_pay11 (F := Ideal) (k0_pay10 x0 K v) (ix3 p w f) = (v (ix3 p w f) : EReal) + tapAt x0 K 0 (hiRow p) w f := by
  unfold k0_pay11 k0_pay10 k0_pay8
  simp only [shapeCast_self]
  refine congrArg (fun t => (v (ix3 p w f) : EReal) + t) ?_
  refine (Half.half_product (k0_pay7 x0) K 64 _ p w f (hiRow p) (by show p.val + 64 = 64 + p.val; omega)).trans ?_
  unfold tapAt
  refine Finset.sum_congr rfl fun c _ => ?_
  rw [Rolls.roll0_apply]

/-- Update 2: tap 1, the upper half. -/
theorem pay2_apply (x0 : Vec Ideal S1x128x128x64 .f32) (K : Vec Ideal S64x128 .f32) (v : Vec Ideal S64x128x128 .f32)
    (p : Fin 64) (w f : Fin 128) :
    k0_pay14 (F := Ideal) (k0_pay5 x0) K v (ix3 p w f) = (v (ix3 p w f) : EReal) + tapAt x0 K 1 (loRow p) w f := by
  unfold k0_pay14 k0_pay13
  simp only [shapeCast_self]
  refine congrArg (fun t => (v (ix3 p w f) : EReal) + t) ?_
  refine (Half.half_product (k0_pay12 (k0_pay5 x0)) K 0 _ p w f (loRow p) (by show p.val = 0 + p.val; omega)).trans ?_
  unfold tapAt
  refine Finset.sum_congr rfl fun c _ => ?_
  rw [Rolls.roll1_apply, Rolls.base_apply]
  exact congrArg (fun h => x0 (ix4 0 h (rollSrc 0 w) c) * K (ix2 c f)) (rollSrc_one (loRow p)).symm

/-- Update 3: tap 1, the lower half. -/
theorem pay3_apply (x0 : Vec Ideal S1x128x128x64 .f32) (K : Vec Ideal S64x128 .f32) (v : Vec Ideal S64x128x128 .f32)
    (p : Fin 64) (w f : Fin 128) :
    k0_pay15 (F := Ideal) (k0_pay5 x0) K v (ix3 p w f) = (v (ix3 p w f) : EReal) + tapAt x0 K 1 (hiRow p) w f := by
  unfold k0_pay15 k0_pay13
  simp only [shapeCast_self]
  refine congrArg (fun t => (v (ix3 p w f) : EReal) + t) ?_
  refine (Half.half_product (k0_pay12 (k0_pay5 x0)) K 64 _ p w f (hiRow p) (by show p.val + 64 = 64 + p.val; omega)).trans ?_
  unfold tapAt
  refine Finset.sum_congr rfl fun c _ => ?_
  rw [Rolls.roll1_apply, Rolls.base_apply]
  exact congrArg (fun h => x0 (ix4 0 h (rollSrc 0 w) c) * K (ix2 c f)) (rollSrc_one (hiRow p)).symm

/-- Update 4: tap 2, the upper half. -/
theorem pay4_apply (x0 : Vec Ideal S1x128x128x64 .f32) (K : Vec Ideal S64x128 .f32) (v : Vec Ideal S64x128x128 .f32)
    (p : Fin 64) (w f : Fin 128) :
    k0_pay19 (F := Ideal) (k0_pay18 (k0_pay5 x0) K) v (ix3 p w f) = (v (ix3 p w f) : EReal) + tapAt x0 K 2 (loRow p) w f := by
  unfold k0_pay19 k0_pay18 k0_pay17
  simp only [shapeCast_self]
  refine congrArg (fun t => (v (ix3 p w f) : EReal) + t) ?_
  refine (Half.half_product (k0_pay16 (k0_pay5 x0)) K 0 _ p w f (loRow p) (by show p.val = 0 + p.val; omega)).trans ?_
  unfold tapAt
  refine Finset.sum_congr rfl fun c _ => ?_
  rw [Rolls.roll2_apply, Rolls.base_apply]

/-- Update 5: tap 2, the lower half. -/
theorem pay5_apply (x0 : Vec Ideal S1x128x128x64 .f32) (K : Vec Ideal S64x128 .f32) (v : Vec Ideal S64x128x128 .f32)
    (p : Fin 64) (w f : Fin 128) :
    k0_pay20 (F := Ideal) (k0_pay16 (k0_pay5 x0)) (k0_pay17 K) v (ix3 p w f) = (v (ix3 p w f) : EReal) + tapAt x0 K 2 (hiRow p) w f := by
  unfold k0_pay20 k0_pay17
  simp only [shapeCast_self]
  refine congrArg (fun t => (v (ix3 p w f) : EReal) + t) ?_
  refine (Half.half_product (k0_pay16 (k0_pay5 x0)) K 64 _ p w f (hiRow p) (by show p.val + 64 = 64 + p.val; omega)).trans ?_
  unfold tapAt
  refine Finset.sum_congr rfl fun c _ => ?_
  rw [Rolls.roll2_apply, Rolls.base_apply]

/-- Update 6: tap 3, the upper half. -/
theorem pay6_apply (x0 : Vec Ideal S1x128x128x64 .f32) (K : Vec Ideal S64x128 .f32) (v : Vec Ideal S64x128x128 .f32)
    (p : Fin 64) (w f : Fin 128) :
    k0_pay23 (F := Ideal) (k0_pay5 x0) K v (ix3 p w f) = (v (ix3 p w f) : EReal) + tapAt x0 K 3 (loRow p) w f := by
  unfold k0_pay23 k0_pay22
  simp only [shapeCast_self]
  refine congrArg (fun t => (v (ix3 p w f) : EReal) + t) ?_
  refine (Half.half_product (k0_pay21 (k0_pay5 x0)) K 0 _ p w f (loRow p) (by show p.val = 0 + p.val; omega)).trans ?_
  unfold tapAt
  refine Finset.sum_congr rfl fun c _ => ?_
  rw [Rolls.roll3_apply, Rolls.base_apply]
  exact congrArg (fun w' => x0 (ix4 0 (rollSrc 0 (loRow p)) w' c) * K (ix2 c f)) (rollSrc_one w).symm

/-- Update 7: tap 3, the lower half. -/
theorem pay7_apply (x0 : Vec Ideal S1x128x128x64 .f32) (K : Vec Ideal S64x128 .f32) (v : Vec Ideal S64x128x128 .f32)
    (p : Fin 64) (w f : Fin 128) :
    k0_pay25 (F := Ideal) v (k0_pay24 (k0_pay5 x0) K) (ix3 p w f) = (v (ix3 p w f) : EReal) + tapAt x0 K 3 (hiRow p) w f := by
  unfold k0_pay25 k0_pay24 k0_pay22
  simp only [shapeCast_self]
  refine congrArg (fun t => (v (ix3 p w f) : EReal) + t) ?_
  refine (Half.half_product (k0_pay21 (k0_pay5 x0)) K 64 _ p w f (hiRow p) (by show p.val + 64 = 64 + p.val; omega)).trans ?_
  unfold tapAt
  refine Finset.sum_congr rfl fun c _ => ?_
  rw [Rolls.roll3_apply, Rolls.base_apply]
  exact congrArg (fun w' => x0 (ix4 0 (rollSrc 0 (hiRow p)) w' c) * K (ix2 c f)) (rollSrc_one w).symm

/-- Update 8: tap 4, the upper half. -/
theorem pay8_apply (x0 : Vec Ideal S1x128x128x64 .f32) (K : Vec Ideal S64x128 .f32) (v : Vec Ideal S64x128x128 .f32)
    (p : Fin 64) (w f : Fin 128) :
    k0_pay27 (F := Ideal) (k0_pay5 x0) K v (ix3 p w f) = (v (ix3 p w f) : EReal) + tapAt x0 K 4 (loRow p) w f := by
  unfold k0_pay27 k0_pay26
  simp only [shapeCast_self]
  refine congrArg (fun t => (v (ix3 p w f) : EReal) + t) ?_
  refine (Half.half_product (k0_pay5 x0) K 0 _ p w f (loRow p) (by show p.val = 0 + p.val; omega)).trans ?_
  unfold tapAt
  refine Finset.sum_congr rfl fun c _ => ?_
  rw [Rolls.base_apply]
  exact (congrArg (fun h => x0 (ix4 0 h w c) * K (ix2 c f)) (rollSrc_one (loRow p)).symm).trans
    (congrArg (fun w' => x0 (ix4 0 (rollSrc 1 (loRow p)) w' c) * K (ix2 c f)) (rollSrc_one w).symm)

end Cert.KernelIdeal.Pay

end
-- ==== Proof.KPayB.lean ====
/-
  The accumulator's updates 9 to 17 (the lower half of tap 4, taps 5 to 8) read at an index: each stored value is the
  half accumulator it loaded plus the tap's half-image product.
-/
import proofs.«176972_j77137612636252_1_alg».proof.Proof.KRolls
import proofs.«176972_j77137612636252_1_alg».proof.Proof.KHalf
import proofs.«176972_j77137612636252_1_alg».proof.Proof.KPayDefs

noncomputable section

namespace Cert.KernelIdeal.Pay

open Cert.KernelIdeal Cert.KernelIdeal.Gen Idealize.ShloMosaic Idealize.ShloMosaic.ValueIdx Cert.Conv

/-- Update 9: tap 4, the lower half. -/
theorem pay9_apply (x0 : Vec Ideal S1x128x128x64 .f32) (K : Vec Ideal S64x128 .f32) (v : Vec Ideal S64x128x128 .f32)
    (p : Fin 64) (w f : Fin 128) :
    k0_pay28 (F := Ideal) (k0_pay5 x0) K v (ix3 p w f) = (v (ix3 p w f) : EReal) + tapAt x0 K 4 (hiRow p) w f := by
  unfold k0_pay28 k0_pay26
  simp only [shapeCast_self]
  refine (addf_apply _ _ _).trans ?_
  refine congrArg ((v (ix3 p w f) : EReal) + ·) ?_
  refine (Half.half_product (k0_pay5 x0) K 64 _ p w f (hiRow p) (by show p.val + 64 = 64 + p.val; omega)).trans ?_
  unfold tapAt
  refine Finset.sum_congr rfl fun c _ => ?_
  show _ = x0 (ix4 0 (rollSrc 1 (hiRow p)) (rollSrc 1 w) c) * K (ix2 c f)
  rw [Rolls.base_apply, rollSrc_one, rollSrc_one]

/-- Update 10: tap 5, the upper half. -/
theorem pay10_apply (x0 : Vec Ideal S1x128x128x64 .f32) (K : Vec Ideal S64x128 .f32) (v : Vec Ideal S64x128x128 .f32)
    (p : Fin 64) (w f : Fin 128) :
    k0_pay32 (F := Ideal) (k0_pay31 (k0_pay5 x0) K) v (ix3 p w f) = (v (ix3 p w f) : EReal) + tapAt x0 K 5 (loRow p) w f := by
  unfold k0_pay32 k0_pay31 k0_pay30
  simp only [shapeCast_self]
  refine (addf_apply _ _ _).trans ?_
  refine congrArg ((v (ix3 p w f) : EReal) + ·) ?_
  refine (Half.half_product (k0_pay29 (k0_pay5 x0)) K 0 _ p w f (loRow p) (by show p.val = 0 + p.val; omega)).trans ?_
  unfold tapAt
  refine Finset.sum_congr rfl fun c _ => ?_
  show _ = x0 (ix4 0 (rollSrc 2 (loRow p)) (rollSrc 1 w) c) * K (ix2 c f)
  rw [Rolls.roll5_apply, Rolls.base_apply, rollSrc_one]

/-- Update 11: tap 5, the lower half. -/
theorem pay11_apply (x0 : Vec Ideal S1x128x128x64 .f32) (K : Vec Ideal S64x128 .f32) (v : Vec Ideal S64x128x128 .f32)
    (p : Fin 64) (w f : Fin 128) :
    k0_pay33 (F := Ideal) (k0_pay29 (k0_pay5 x0)) (k0_pay30 K) v (ix3 p w f) = (v (ix3 p w f) : EReal) + tapAt x0 K 5 (hiRow p) w f := by
  unfold k0_pay33 k0_pay30
  simp only [shapeCast_self]
  refine (addf_apply _ _ _).trans ?_
  refine congrArg ((v (ix3 p w f) : EReal) + ·) ?_
  refine (Half.half_product (k0_pay29 (k0_pay5 x0)) K 64 _ p w f (hiRow p) (by show p.val + 64 = 64 + p.val; omega)).trans ?_
  unfold tapAt
  refine Finset.sum_congr rfl fun c _ => ?_
  show _ = x0 (ix4 0 (rollSrc 2 (hiRow p)) (rollSrc 1 w) c) * K (ix2 c f)
  rw [Rolls.roll5_apply, Rolls.base_apply, rollSrc_one]

/-- Update 12: tap 6, the upper half. -/
theorem pay12_apply (x0 : Vec Ideal S1x128x128x64 .f32) (K : Vec Ideal S64x128 .f32) (v : Vec Ideal S64x128x128 .f32)
    (p : Fin 64) (w f : Fin 128) :
    k0_pay36 (F := Ideal) (k0_pay5 x0) K v (ix3 p w f) = (v (ix3 p w f) : EReal) + tapAt x0 K 6 (loRow p) w f := by
  unfold k0_pay36 k0_pay35
  simp only [shapeCast_self]
  refine (addf_apply _ _ _).trans ?_
  refine congrArg ((v (ix3 p w f) : EReal) + ·) ?_
  refine (Half.half_product (k0_pay34 (k0_pay5 x0)) K 0 _ p w f (loRow p) (by show p.val = 0 + p.val; omega)).trans ?_
  unfold tapAt
  refine Finset.sum_congr rfl fun c _ => ?_
  show _ = x0 (ix4 0 (rollSrc 0 (loRow p)) (rollSrc 2 w) c) * K (ix2 c f)
  rw [Rolls.roll6_apply, Rolls.base_apply]

/-- Update 13: tap 6, the lower half. -/
theorem pay13_apply (x0 : Vec Ideal S1x128x128x64 .f32) (K : Vec Ideal S64x128 .f32) (v : Vec Ideal S64x128x128 .f32)
    (p : Fin 64) (w f : Fin 128) :
    k0_pay38 (F := Ideal) (k0_pay37 (k0_pay5 x0) K) v (ix3 p w f) = (v (ix3 p w f) : EReal) + tapAt x0 K 6 (hiRow p) w f := by
  unfold k0_pay38 k0_pay37 k0_pay35
  simp only [shapeCast_self]
  refine (addf_apply _ _ _).trans ?_
  refine congrArg ((v (ix3 p w f) : EReal) + ·) ?_
  refine (Half.half_product (k0_pay34 (k0_pay5 x0)) K 64 _ p w f (hiRow p) (by show p.val + 64 = 64 + p.val; omega)).trans ?_
  unfold tapAt
  refine Finset.sum_congr rfl fun c _ => ?_
  show _ = x0 (ix4 0 (rollSrc 0 (hiRow p)) (rollSrc 2 w) c) * K (ix2 c f)
  rw [Rolls.roll6_apply, Rolls.base_apply]

/-- Update 14: tap 7, the upper half. -/
theorem pay14_apply (x0 : Vec Ideal S1x128x128x64 .f32) (K : Vec Ideal S64x128 .f32) (v : Vec Ideal S64x128x128 .f32)
    (p : Fin 64) (w f : Fin 128) :
    k0_pay41 (F := Ideal) (k0_pay5 x0) K v (ix3 p w f) = (v (ix3 p w f) : EReal) + tapAt x0 K 7 (loRow p) w f := by
  unfold k0_pay41 k0_pay40
  simp only [shapeCast_self]
  refine (addf_apply _ _ _).trans ?_
  refine congrArg ((v (ix3 p w f) : EReal) + ·) ?_
  refine (Half.half_product (k0_pay39 (k0_pay5 x0)) K 0 _ p w f (loRow p) (by show p.val = 0 + p.val; omega)).trans ?_
  unfold tapAt
  refine Finset.sum_congr rfl fun c _ => ?_
  show _ = x0 (ix4 0 (rollSrc 1 (loRow p)) (rollSrc 2 w) c) * K (ix2 c f)
  rw [Rolls.roll7_apply, Rolls.base_apply, rollSrc_one]

/-- Update 15: tap 7, the lower half. -/
theorem pay15_apply (x0 : Vec Ideal S1x128x128x64 .f32) (K : Vec Ideal S64x128 .f32) (v : Vec Ideal S64x128x128 .f32)
    (p : Fin 64) (w f : Fin 128) :
    k0_pay42 (F := Ideal) (k0_pay5 x0) K v (ix3 p w f) = (v (ix3 p w f) : EReal) + tapAt x0 K 7 (hiRow p) w f := by
  unfold k0_pay42 k0_pay40
  simp only [shapeCast_self]
  refine (addf_apply _ _ _).trans ?_
  refine congrArg ((v (ix3 p w f) : EReal) + ·) ?_
  refine (Half.half_product (k0_pay39 (k0_pay5 x0)) K 64 _ p w f (hiRow p) (by show p.val + 64 = 64 + p.val; omega)).trans ?_
  unfold tapAt
  refine Finset.sum_congr rfl fun c _ => ?_
  show _ = x0 (ix4 0 (rollSrc 1 (hiRow p)) (rollSrc 2 w) c) * K (ix2 c f)
  rw [Rolls.roll7_apply, Rolls.base_apply, rollSrc_one]

/-- Update 16: tap 8, the upper half. -/
theorem pay16_apply (x0 : Vec Ideal S1x128x128x64 .f32) (K : Vec Ideal S64x128 .f32) (v : Vec Ideal S64x128x128 .f32)
    (p : Fin 64) (w f : Fin 128) :
    k0_pay2 (F := Ideal) (k0_pay43 (k0_pay5 x0)) K v (ix3 p w f) = (v (ix3 p w f) : EReal) + tapAt x0 K 8 (loRow p) w f := by
  unfold k0_pay2 k0_pay1
  simp only [shapeCast_self]
  refine (addf_apply _ _ _).trans ?_
  refine congrArg ((v (ix3 p w f) : EReal) + ·) ?_
  refine (Half.half_product (k0_pay43 (k0_pay5 x0)) K 0 _ p w f (loRow p) (by show p.val = 0 + p.val; omega)).trans ?_
  unfold tapAt
  refine Finset.sum_congr rfl fun c _ => ?_
  show _ = x0 (ix4 0 (rollSrc 2 (loRow p)) (rollSrc 2 w) c) * K (ix2 c f)
  rw [Rolls.roll8_apply, Rolls.base_apply]

/-- Update 17: tap 8, the lower half. -/
theorem pay17_apply (x0 : Vec Ideal S1x128x128x64 .f32) (K : Vec Ideal S64x128 .f32) (v : Vec Ideal S64x128x128 .f32)
    (p : Fin 64) (w f : Fin 128) :
    k0_pay3 (F := Ideal) (k0_pay43 (k0_pay5 x0)) K v (ix3 p w f) = (v (ix3 p w f) : EReal) + tapAt x0 K 8 (hiRow p) w f := by
  unfold k0_pay3 k0_pay1
  simp only [shapeCast_self]
  refine (addf_apply _ _ _).trans ?_
  refine congrArg ((v (ix3 p w f) : EReal) + ·) ?_
  refine (Half.half_product (k0_pay43 (k0_pay5 x0)) K 64 _ p w f (hiRow p) (by show p.val + 64 = 64 + p.val; omega)).trans ?_
  unfold tapAt
  refine Finset.sum_congr rfl fun c _ => ?_
  show _ = x0 (ix4 0 (rollSrc 2 (hiRow p)) (rollSrc 2 w) c) * K (ix2 c f)
  rw [Rolls.roll8_apply, Rolls.base_apply]

end Cert.KernelIdeal.Pay

end
-- ==== Proof.KChain.lean ====
/-
  What the kernel's body leaves in its output block.

  The body zeroes a `[128, 128, 128]` accumulator, then for each of the nine taps adds the tap's product for the
  upper 64 rows and for the lower 64 rows, each time loading that half of the accumulator, adding and storing it
  back; at the end it loads the whole accumulator, adds the bias along the last axis and stores the block.  So
  after an update of the upper half for tap `s` the accumulator holds `s + 1` taps (added in order onto zero) in its
  upper rows and `s` in its lower rows, and after the update of the lower half `s + 1` everywhere; after all
  eighteen updates it holds nine taps everywhere, and the stored block is the convolution of the image block with
  the weight block, plus the bias block.

  The stores are kept as a list of written rectangles with their values, newest first; a load reads, at each index,
  the newest rectangle that holds it.  The two halves are the rectangles of rows `0 … 63` and `64 … 127`.
-/
import proofs.«176972_j77137612636252_1_alg».proof.Proof.Gen.KernelIdeal.Frame
import proofs.«176972_j77137612636252_1_alg».proof.Proof.KPayA
import proofs.«176972_j77137612636252_1_alg».proof.Proof.KPayB
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.ShloMosaic.Tactic
open Idealize.SL.Sem Idealize.ShloMosaic.ValueIdx Cert.Conv Cert.KernelIdeal.Pay

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Reading a list of half-accumulator stores -/

section Pieces

variable {κ : Kind} {sp : Space} (v : View sig κ sp S128x128x128 .f32)
variable (L : List (View.Piece (Elt Ideal) S128x128x128 .f32))

/-- Under a newest store to the upper half, a row of the upper half reads the stored value. -/
theorem canon_lo_of_lt (inb : ∀ a, (![0, 0, 0] : Fin 3 → Nat) a + S64x128x128.size a ≤ S128x128x128.size a)
    (P : (Rect.unit (s := S128x128x128) ![0, 0, 0] S64x128x128.size inb).shape.Idx → Elt Ideal .f32)
    (p : Fin 64) (w f : Fin 128) :
    View.canon (⟨Rect.unit (s := S128x128x128) ![0, 0, 0] S64x128x128.size inb, P⟩ :: L) (ix3 (loRow p) w f) = P (ix3 p w f) := by
  have e : (ix3 (loRow p) w f : S128x128x128.Idx) = (Rect.unit (s := S128x128x128) ![0, 0, 0] S64x128x128.size inb).emb (ix3 p w f) :=
    funext fun a => Fin.ext (by
      match a with
      | ⟨0, _⟩ => show p.val = 0 + 1 * p.val; omega
      | ⟨1, _⟩ => show w.val = 0 + 1 * w.val; omega
      | ⟨2, _⟩ => show f.val = 0 + 1 * f.val; omega)
  rw [e]; exact View.canon_cons_emb _ P L _

/-- and a row of the lower half reads the earlier stores. -/
theorem canon_lo_of_ge (inb : ∀ a, (![0, 0, 0] : Fin 3 → Nat) a + S64x128x128.size a ≤ S128x128x128.size a)
    (P : (Rect.unit (s := S128x128x128) ![0, 0, 0] S64x128x128.size inb).shape.Idx → Elt Ideal .f32)
    (h w f : Fin 128) (hh : 64 ≤ h.val) :
    View.canon (⟨Rect.unit (s := S128x128x128) ![0, 0, 0] S64x128x128.size inb, P⟩ :: L) (ix3 h w f) = View.canon L (ix3 h w f) := by
  refine View.canon_cons_of_not_mem _ L fun hm => ?_
  have h0 := ((Rect.mem_set_unit (inb := inb)).mp hm 0).2
  have : h.val < 0 + 64 := h0
  omega

/-- Under a newest store to the lower half, a row of the lower half reads the stored value. -/
theorem canon_hi_of_ge (inb : ∀ a, (![64, 0, 0] : Fin 3 → Nat) a + S64x128x128.size a ≤ S128x128x128.size a)
    (P : (Rect.unit (s := S128x128x128) ![64, 0, 0] S64x128x128.size inb).shape.Idx → Elt Ideal .f32)
    (p : Fin 64) (w f : Fin 128) :
    View.canon (⟨Rect.unit (s := S128x128x128) ![64, 0, 0] S64x128x128.size inb, P⟩ :: L) (ix3 (hiRow p) w f) = P (ix3 p w f) := by
  have e : (ix3 (hiRow p) w f : S128x128x128.Idx) = (Rect.unit (s := S128x128x128) ![64, 0, 0] S64x128x128.size inb).emb (ix3 p w f) :=
    funext fun a => Fin.ext (by
      match a with
      | ⟨0, _⟩ => show p.val + 64 = 64 + 1 * p.val; omega
      | ⟨1, _⟩ => show w.val = 0 + 1 * w.val; omega
      | ⟨2, _⟩ => show f.val = 0 + 1 * f.val; omega)
  rw [e]; exact View.canon_cons_emb _ P L _

/-- and a row of the upper half reads the earlier stores. -/
theorem canon_hi_of_lt (inb : ∀ a, (![64, 0, 0] : Fin 3 → Nat) a + S64x128x128.size a ≤ S128x128x128.size a)
    (P : (Rect.unit (s := S128x128x128) ![64, 0, 0] S64x128x128.size inb).shape.Idx → Elt Ideal .f32)
    (h w f : Fin 128) (hh : h.val < 64) :
    View.canon (⟨Rect.unit (s := S128x128x128) ![64, 0, 0] S64x128x128.size inb, P⟩ :: L) (ix3 h w f) = View.canon L (ix3 h w f) := by
  refine View.canon_cons_of_not_mem _ L fun hm => ?_
  have h0 := ((Rect.mem_set_unit (inb := inb)).mp hm 0).1
  have : 64 ≤ h.val := h0
  omega

/-- A load of the upper half reads the stores at the rows of the upper half. -/
theorem readCov_lo (inb : ∀ a, (![0, 0, 0] : Fin 3 → Nat) a + S64x128x128.size a ≤ S128x128x128.size a)
    (p : Fin 64) (w f : Fin 128) :
    v.readCov L (Rect.unit (s := S128x128x128) ![0, 0, 0] S64x128x128.size inb).toLoadRect (ix3 p w f) = View.canon L (ix3 (loRow p) w f) := by
  rw [View.readCov_eq_canon']
  refine congrArg (View.canon L) (funext fun a => Fin.ext ?_)
  match a with
  | ⟨0, _⟩ => show 0 + 1 * p.val = p.val; omega
  | ⟨1, _⟩ => show 0 + 1 * w.val = w.val; omega
  | ⟨2, _⟩ => show 0 + 1 * f.val = f.val; omega

/-- A load of the lower half reads the stores at the rows of the lower half. -/
theorem readCov_hi (inb : ∀ a, (![64, 0, 0] : Fin 3 → Nat) a + S64x128x128.size a ≤ S128x128x128.size a)
    (p : Fin 64) (w f : Fin 128) :
    v.readCov L (Rect.unit (s := S128x128x128) ![64, 0, 0] S64x128x128.size inb).toLoadRect (ix3 p w f) = View.canon L (ix3 (hiRow p) w f) := by
  rw [View.readCov_eq_canon']
  refine congrArg (View.canon L) (funext fun a => Fin.ext ?_)
  match a with
  | ⟨0, _⟩ => show 64 + 1 * p.val = p.val + 64; omega
  | ⟨1, _⟩ => show 0 + 1 * w.val = w.val; omega
  | ⟨2, _⟩ => show 0 + 1 * f.val = f.val; omega

/-- A load of the whole accumulator reads the stores at every index. -/
theorem readCov_whole (inb : ∀ a, (![0, 0, 0] : Fin 3 → Nat) a + S128x128x128.size a ≤ S128x128x128.size a)
    (h w f : Fin 128) :
    v.readCov L (Rect.unit (s := S128x128x128) ![0, 0, 0] S128x128x128.size inb).toLoadRect (ix3 h w f) = View.canon L (ix3 h w f) := by
  rw [View.readCov_eq_canon']
  refine congrArg (View.canon L) (funext fun a => Fin.ext ?_)
  match a with
  | ⟨0, _⟩ => show 0 + 1 * h.val = h.val; omega
  | ⟨1, _⟩ => show 0 + 1 * w.val = w.val; omega
  | ⟨2, _⟩ => show 0 + 1 * f.val = f.val; omega

end Pieces

/-! ## The accumulator after each update -/

section Steps

variable {κ : Kind} {sp : Space} (v : View sig κ sp S128x128x128 .f32)
variable (x0 : Vec Ideal S1x128x128x64 .f32) (x1 : Vec Ideal S576x128 .f32)

/-- The accumulator holds `nLo` taps in its upper rows and `nHi` in its lower rows. -/
def Holds (L : List (View.Piece (Elt Ideal) S128x128x128 .f32)) (nLo nHi : ℕ) : Prop :=
  ∀ h w f : Fin 128, View.canon L (ix3 h w f) = Conv.accum x0 x1 0 h w f (if h.val < 64 then nLo else nHi)

/-- `K` is rows `64 s … 64 s + 63` of the weight block. -/
def IsRows (K : Vec Ideal S64x128 .f32) (s : ℕ) : Prop :=
  ∀ (c : Fin 64) (f : Fin 128), K (ix2 c f) = x1 (ix2 ⟨(s * 64 + c.val) % 576, Nat.mod_lt _ (by norm_num)⟩ f)

variable {x0 x1}

/-- What an update adds is the tap of the blocks. -/
theorem tapAt_eq {K : Vec Ideal S64x128 .f32} {s : ℕ} (hK : IsRows x1 K s) (h w f : Fin 128) :
    tapAt x0 K s h w f = Conv.tap x0 x1 s 0 h w f := by
  unfold tapAt Conv.tap Conv.term
  refine Finset.sum_congr rfl fun c _ => ?_
  have hc := c.isLt
  have e1 : (s * 64 + c.val) / 64 = s := by omega
  have e2 : (s * 64 + c.val) % 64 = c.val := by omega
  rw [hK c f]
  simp only [e1, e2]

/-- An update of the upper half for tap `s`. -/
theorem step_lo {L : List (View.Piece (Elt Ideal) S128x128x128 .f32)} {s : ℕ} (hL : Holds x0 x1 L s s)
    (inb : ∀ a, (![0, 0, 0] : Fin 3 → Nat) a + S64x128x128.size a ≤ S128x128x128.size a)
    (P : (Rect.unit (s := S128x128x128) ![0, 0, 0] S64x128x128.size inb).shape.Idx → Elt Ideal .f32)
    (K : Vec Ideal S64x128 .f32) (hK : IsRows x1 K s)
    (hP : ∀ (p : Fin 64) (w f : Fin 128), P (ix3 p w f)
      = (v.readCov L (Rect.unit (s := S128x128x128) ![0, 0, 0] S64x128x128.size inb).toLoadRect (ix3 p w f) : EReal)
        + tapAt x0 K s (loRow p) w f) :
    Holds x0 x1 (⟨Rect.unit (s := S128x128x128) ![0, 0, 0] S64x128x128.size inb, P⟩ :: L) (s + 1) s := by
  intro h w f
  by_cases hh : h.val < 64
  · obtain ⟨p, rfl⟩ : ∃ p : Fin 64, h = loRow p := ⟨⟨h.val, hh⟩, Fin.ext rfl⟩
    rw [canon_lo_of_lt, hP, readCov_lo, hL, if_pos hh, if_pos hh, tapAt_eq hK]
    rfl
  · rw [canon_lo_of_ge L inb P h w f (by omega), hL, if_neg hh, if_neg hh]

/-- An update of the lower half for tap `s`. -/
theorem step_hi {L : List (View.Piece (Elt Ideal) S128x128x128 .f32)} {s : ℕ} (hL : Holds x0 x1 L (s + 1) s)
    (inb : ∀ a, (![64, 0, 0] : Fin 3 → Nat) a + S64x128x128.size a ≤ S128x128x128.size a)
    (P : (Rect.unit (s := S128x128x128) ![64, 0, 0] S64x128x128.size inb).shape.Idx → Elt Ideal .f32)
    (K : Vec Ideal S64x128 .f32) (hK : IsRows x1 K s)
    (hP : ∀ (p : Fin 64) (w f : Fin 128), P (ix3 p w f)
      = (v.readCov L (Rect.unit (s := S128x128x128) ![64, 0, 0] S64x128x128.size inb).toLoadRect (ix3 p w f) : EReal)
        + tapAt x0 K s (hiRow p) w f) :
    Holds x0 x1 (⟨Rect.unit (s := S128x128x128) ![64, 0, 0] S64x128x128.size inb, P⟩ :: L) (s + 1) (s + 1) := by
  intro h w f
  by_cases hh : h.val < 64
  · rw [canon_hi_of_lt L inb P h w f hh, hL, if_pos hh, if_pos hh]
  · obtain ⟨p, rfl⟩ : ∃ p : Fin 64, h = hiRow p :=
      ⟨⟨h.val - 64, by have := h.isLt; omega⟩, Fin.ext (by show h.val = h.val - 64 + 64; omega)⟩
    rw [canon_hi_of_ge, hP, readCov_hi, hL, if_neg hh, if_neg hh, tapAt_eq hK]
    rfl

end Steps

/-! ## The body's stores, one after the other -/

section Run

variable (c : Dev nD) (arg2 : Memref sig .tc .vmem S1x128x128x64 .f32) (harg2 : arg2.IsWhole) (arg3 : Memref sig .tc .vmem S576x128 .f32) (harg3 : arg3.IsWhole) (arg6 : Memref sig .tc .vmem S128x128x128 .f32)
variable (x0 : Vec Ideal S1x128x128x64 .f32) (x1 : Vec Ideal S576x128 .f32)

/-- The image block as the body loads it. -/
theorem load_image (inb : ∀ a, (![0, 0, 0, 0] : Fin 4 → Nat) a + S1x128x128x64.size a ≤ S1x128x128x64.size a) :
    View.readAt (Elt Ideal) arg2.view (Rect.unit (s := S1x128x128x64) ![0, 0, 0, 0] S1x128x128x64.size inb).toLoadRect (harg2.unread x0) = x0 := by
  rw [View.readAt_eq_ld, harg2.read_unread, View.ld_unit_zero (S := S1x128x128x64) hz4]

/-- The 64 weight rows the body loads at row offset `o`. -/
abbrev rowsAt (o : ℕ) (inb : ∀ a, (![o, 0] : Fin 2 → Nat) a + S64x128.size a ≤ S576x128.size a) : Vec Ideal S64x128 .f32 :=
  View.readAt (Elt Ideal) arg3.view (Rect.unit (s := S576x128) ![o, 0] S64x128.size inb).toLoadRect (harg3.unread x1)

/-- At row offset `o = 64 s` they are the tap's rows. -/
theorem load_rows (s o : ℕ) (ho : o = s * 64) (hs : s < 9)
    (inb : ∀ a, (![o, 0] : Fin 2 → Nat) a + S64x128.size a ≤ S576x128.size a) :
    IsRows x1 (rowsAt arg3 harg3 x1 o inb) s := by
  intro c f
  show View.readAt (Elt Ideal) arg3.view (Rect.unit (s := S576x128) ![o, 0] S64x128.size inb).toLoadRect (harg3.unread x1) (ix2 c f) = _
  rw [View.readAt_eq_ld, harg3.read_unread]
  refine congrArg x1 (funext fun a => Fin.ext ?_)
  have hc := c.isLt
  match a with
  | ⟨0, _⟩ => show o + 1 * c.val = (s * 64 + c.val) % 576; omega
  | ⟨1, _⟩ => show 0 + 1 * f.val = f.val; omega

/-- After the zeroing store. -/
theorem holds1 : Holds x0 x1 (kernelRun0_A.sl.HS0_1 (F := Ideal)) 0 0 := by
  intro h w f
  unfold kernelRun0_A.sl.HS0_1
  rw [View.canon_unit_zero hz3, ite_self]
  unfold k0_pay6
  simp only [shapeCast_self]
  rfl

end Run

end Cert.KernelIdeal.Chain

end
-- ==== Proof.KChainSteps.lean ====
import proofs.«176972_j77137612636252_1_alg».proof.Proof.KChain

set_option maxRecDepth 16384

noncomputable section

namespace Cert.KernelIdeal.Chain

open Cert.KernelIdeal Cert.KernelIdeal.Gen Idealize.ShloMosaic Idealize.ShloMosaic.TcCoe Idealize.ShloMosaic.Tactic
open Idealize.SL.Sem Idealize.ShloMosaic.ValueIdx Cert.Conv Cert.KernelIdeal.Pay

section Run

variable (c : Dev nD) (arg2 : Memref sig .tc .vmem S1x128x128x64 .f32) (harg2 : arg2.IsWhole) (arg3 : Memref sig .tc .vmem S576x128 .f32) (harg3 : arg3.IsWhole) (arg6 : Memref sig .tc .vmem S128x128x128 .f32)
variable (x0 : Vec Ideal S1x128x128x64 .f32) (x1 : Vec Ideal S576x128 .f32)

/-- Tap 0, the upper half. -/
theorem holds2 : Holds x0 x1 (kernelRun0_A.sl.HS0_2 c arg2 harg2 arg3 harg3 arg6 x0 x1) 1 0 := by
  unfold kernelRun0_A.sl.HS0_2
  refine step_lo arg6.view (holds1 x0 x1) _ _ (rowsAt arg3 harg3 x1 0 inb_S576x128_S64x128_0_0)
    (load_rows arg3 harg3 x1 0 0 rfl (by norm_num) _) fun p w f => ?_
  rw [load_image]
  exact pay0_apply x0 _ (kernelRun0_A.sl.v18 c arg6) p w f

/-- Tap 0, the lower half. -/
theorem holds3 : Holds x0 x1 (kernelRun0_A.sl.HS0_3 c arg2 harg2 arg3 harg3 arg6 x0 x1) 1 1 := by
  unfold kernelRun0_A.sl.HS0_3
  refine step_hi arg6.view (holds2 c arg2 harg2 arg3 harg3 arg6 x0 x1) _ _ (rowsAt arg3 harg3 x1 0 inb_S576x128_S64x128_0_0)
    (load_rows arg3 harg3 x1 0 0 rfl (by norm_num) _) fun p w f => ?_
  unfold kernelRun0_A.sl.r_1
  rw [load_image]
  exact pay1_apply x0 _ (kernelRun0_A.sl.v27 c arg2 harg2 arg3 harg3 arg6 x0 x1) p w f

/-- Tap 1, the upper half. -/
theorem holds4 : Holds x0 x1 (kernelRun0_A.sl.HS0_4 c arg2 harg2 arg3 harg3 arg6 x0 x1) 2 1 := by
  unfold kernelRun0_A.sl.HS0_4
  refine step_lo arg6.view (holds3 c arg2 harg2 arg3 harg3 arg6 x0 x1) _ _ (rowsAt arg3 harg3 x1 64 inb_S576x128_S64x128_64_0)
    (load_rows arg3 harg3 x1 1 64 rfl (by norm_num) _) fun p w f => ?_
  unfold kernelRun0_A.sl.r
  rw [load_image]
  exact pay2_apply x0 _ (kernelRun0_A.sl.v41 c arg2 harg2 arg3 harg3 arg6 x0 x1) p w f

/-- Tap 1, the lower half. -/
theorem holds5 : Holds x0 x1 (kernelRun0_A.sl.HS0_5 c arg2 harg2 arg3 harg3 arg6 x0 x1) 2 2 := by
  unfold kernelRun0_A.sl.HS0_5
  refine step_hi arg6.view (holds4 c arg2 harg2 arg3 harg3 arg6 x0 x1) _ _ (rowsAt arg3 harg3 x1 64 inb_S576x128_S64x128_64_0)
    (load_rows arg3 harg3 x1 1 64 rfl (by norm_num) _) fun p w f => ?_
  unfold kernelRun0_A.sl.r
  rw [load_image]
  exact pay3_apply x0 _ (kernelRun0_A.sl.v50 c arg2 harg2 arg3 harg3 arg6 x0 x1) p w f

/-- Tap 2, the upper half. -/
theorem holds6 : Holds x0 x1 (kernelRun0_A.sl.HS0_6 c arg2 harg2 arg3 harg3 arg6 x0 x1) 3 2 := by
  unfold kernelRun0_A.sl.HS0_6
  refine step_lo arg6.view (holds5 c arg2 harg2 arg3 harg3 arg6 x0 x1) _ _ (rowsAt arg3 harg3 x1 128 inb_S576x128_S64x128_128_0)
    (load_rows arg3 harg3 x1 2 128 rfl (by norm_num) _) fun p w f => ?_
  unfold kernelRun0_A.sl.r_4 kernelRun0_A.sl.r
  rw [load_image]
  exact pay4_apply x0 _ (kernelRun0_A.sl.v67 c arg2 harg2 arg3 harg3 arg6 x0 x1) p w f

/-- Tap 2, the lower half. -/
theorem holds7 : Holds x0 x1 (kernelRun0_A.sl.HS0_7 c arg2 harg2 arg3 harg3 arg6 x0 x1) 3 3 := by
  unfold kernelRun0_A.sl.HS0_7
  refine step_hi arg6.view (holds6 c arg2 harg2 arg3 harg3 arg6 x0 x1) _ _ (rowsAt arg3 harg3 x1 128 inb_S576x128_S64x128_128_0)
    (load_rows arg3 harg3 x1 2 128 rfl (by norm_num) _) fun p w f => ?_
  unfold kernelRun0_A.sl.r_2 kernelRun0_A.sl.r_3 kernelRun0_A.sl.r
  rw [load_image]
  exact pay5_apply x0 _ (kernelRun0_A.sl.v76 c arg2 harg2 arg3 harg3 arg6 x0 x1) p w f

/-- Tap 3, the upper half. -/
theorem holds8 : Holds x0 x1 (kernelRun0_A.sl.HS0_8 c arg2 harg2 arg3 harg3 arg6 x0 x1) 4 3 := by
  unfold kernelRun0_A.sl.HS0_8
  refine step_lo arg6.view (holds7 c arg2 harg2 arg3 harg3 arg6 x0 x1) _ _ (rowsAt arg3 harg3 x1 192 inb_S576x128_S64x128_192_0)
    (load_rows arg3 harg3 x1 3 192 rfl (by norm_num) _) fun p w f => ?_
  unfold kernelRun0_A.sl.r
  rw [load_image]
  exact pay6_apply x0 _ (kernelRun0_A.sl.v90 c arg2 harg2 arg3 harg3 arg6 x0 x1) p w f

/-- Tap 3, the lower half. -/
theorem holds9 : Holds x0 x1 (kernelRun0_A.sl.HS0_9 c arg2 harg2 arg3 harg3 arg6 x0 x1) 4 4 := by
  unfold kernelRun0_A.sl.HS0_9
  refine step_hi arg6.view (holds8 c arg2 harg2 arg3 harg3 arg6 x0 x1) _ _ (rowsAt arg3 harg3 x1 192 inb_S576x128_S64x128_192_0)
    (load_rows arg3 harg3 x1 3 192 rfl (by norm_num) _) fun p w f => ?_
  unfold kernelRun0_A.sl.r_5 kernelRun0_A.sl.r
  rw [load_image]
  exact pay7_apply x0 _ (kernelRun0_A.sl.v99 c arg2 harg2 arg3 harg3 arg6 x0 x1) p w f

/-- Tap 4, the upper half. -/
theorem holds10 : Holds x0 x1 (kernelRun0_A.sl.HS0_10 c arg2 harg2 arg3 harg3 arg6 x0 x1) 5 4 := by
  unfold kernelRun0_A.sl.HS0_10
  refine step_lo arg6.view (holds9 c arg2 harg2 arg3 harg3 arg6 x0 x1) _ _ (rowsAt arg3 harg3 x1 256 inb_S576x128_S64x128_256_0)
    (load_rows arg3 harg3 x1 4 256 rfl (by norm_num) _) fun p w f => ?_
  unfold kernelRun0_A.sl.r
  rw [load_image]
  exact pay8_apply x0 _ (kernelRun0_A.sl.v110 c arg2 harg2 arg3 harg3 arg6 x0 x1) p w f

/-- Tap 4, the lower half. -/
theorem holds11 : Holds x0 x1 (kernelRun0_A.sl.HS0_11 c arg2 harg2 arg3 harg3 arg6 x0 x1) 5 5 := by
  unfold kernelRun0_A.sl.HS0_11
  refine step_hi arg6.view (holds10 c arg2 harg2 arg3 harg3 arg6 x0 x1) _ _ (rowsAt arg3 harg3 x1 256 inb_S576x128_S64x128_256_0)
    (load_rows arg3 harg3 x1 4 256 rfl (by norm_num) _) fun p w f => ?_
  unfold kernelRun0_A.sl.r
  rw [load_image]
  exact pay9_apply x0 _ (kernelRun0_A.sl.v119 c arg2 harg2 arg3 harg3 arg6 x0 x1) p w f

/-- Tap 5, the upper half. -/
theorem holds12 : Holds x0 x1 (kernelRun0_A.sl.HS0_12 c arg2 harg2 arg3 harg3 arg6 x0 x1) 6 5 := by
  unfold kernelRun0_A.sl.HS0_12
  refine step_lo arg6.view (holds11 c arg2 harg2 arg3 harg3 arg6 x0 x1) _ _ (rowsAt arg3 harg3 x1 320 inb_S576x128_S64x128_320_0)
    (load_rows arg3 harg3 x1 5 320 rfl (by norm_num) _) fun p w f => ?_
  unfold kernelRun0_A.sl.r_8 kernelRun0_A.sl.r
  rw [load_image]
  exact pay10_apply x0 _ (kernelRun0_A.sl.v133 c arg2 harg2 arg3 harg3 arg6 x0 x1) p w f

/-- Tap 5, the lower half. -/
theorem holds13 : Holds x0 x1 (kernelRun0_A.sl.HS0_13 c arg2 harg2 arg3 harg3 arg6 x0 x1) 6 6 := by
  unfold kernelRun0_A.sl.HS0_13
  refine step_hi arg6.view (holds12 c arg2 harg2 arg3 harg3 arg6 x0 x1) _ _ (rowsAt arg3 harg3 x1 320 inb_S576x128_S64x128_320_0)
    (load_rows arg3 harg3 x1 5 320 rfl (by norm_num) _) fun p w f => ?_
  unfold kernelRun0_A.sl.r_6 kernelRun0_A.sl.r_7 kernelRun0_A.sl.r
  rw [load_image]
  exact pay11_apply x0 _ (kernelRun0_A.sl.v142 c arg2 harg2 arg3 harg3 arg6 x0 x1) p w f

/-- Tap 6, the upper half. -/
theorem holds14 : Holds x0 x1 (kernelRun0_A.sl.HS0_14 c arg2 harg2 arg3 harg3 arg6 x0 x1) 7 6 := by
  unfold kernelRun0_A.sl.HS0_14
  refine step_lo arg6.view (holds13 c arg2 harg2 arg3 harg3 arg6 x0 x1) _ _ (rowsAt arg3 harg3 x1 384 inb_S576x128_S64x128_384_0)
    (load_rows arg3 harg3 x1 6 384 rfl (by norm_num) _) fun p w f => ?_
  unfold kernelRun0_A.sl.r
  rw [load_image]
  exact pay12_apply x0 _ (kernelRun0_A.sl.v159 c arg2 harg2 arg3 harg3 arg6 x0 x1) p w f

/-- Tap 6, the lower half. -/
theorem holds15 : Holds x0 x1 (kernelRun0_A.sl.HS0_15 c arg2 harg2 arg3 harg3 arg6 x0 x1) 7 7 := by
  unfold kernelRun0_A.sl.HS0_15
  refine step_hi arg6.view (holds14 c arg2 harg2 arg3 harg3 arg6 x0 x1) _ _ (rowsAt arg3 harg3 x1 384 inb_S576x128_S64x128_384_0)
    (load_rows arg3 harg3 x1 6 384 rfl (by norm_num) _) fun p w f => ?_
  unfold kernelRun0_A.sl.r_9 kernelRun0_A.sl.r
  rw [load_image]
  exact pay13_apply x0 _ (kernelRun0_A.sl.v168 c arg2 harg2 arg3 harg3 arg6 x0 x1) p w f

/-- Tap 7, the upper half. -/
theorem holds16 : Holds x0 x1 (kernelRun0_A.sl.HS0_16 c arg2 harg2 arg3 harg3 arg6 x0 x1) 8 7 := by
  unfold kernelRun0_A.sl.HS0_16
  refine step_lo arg6.view (holds15 c arg2 harg2 arg3 harg3 arg6 x0 x1) _ _ (rowsAt arg3 harg3 x1 448 inb_S576x128_S64x128_448_0)
    (load_rows arg3 harg3 x1 7 448 rfl (by norm_num) _) fun p w f => ?_
  unfold kernelRun0_A.sl.r
  rw [load_image]
  exact pay14_apply x0 _ (kernelRun0_A.sl.v182 c arg2 harg2 arg3 harg3 arg6 x0 x1) p w f

/-- Tap 7, the lower half. -/
theorem holds17 : Holds x0 x1 (kernelRun0_A.sl.HS0_17 c arg2 harg2 arg3 harg3 arg6 x0 x1) 8 8 := by
  unfold kernelRun0_A.sl.HS0_17
  refine step_hi arg6.view (holds16 c arg2 harg2 arg3 harg3 arg6 x0 x1) _ _ (rowsAt arg3 harg3 x1 448 inb_S576x128_S64x128_448_0)
    (load_rows arg3 harg3 x1 7 448 rfl (by norm_num) _) fun p w f => ?_
  unfold kernelRun0_A.sl.r
  rw [load_image]
  exact pay15_apply x0 _ (kernelRun0_A.sl.v191 c arg2 harg2 arg3 harg3 arg6 x0 x1) p w f

/-- Tap 8, the upper half. -/
theorem holds18 : Holds x0 x1 (kernelRun0_A.sl.HS0_18 c arg2 harg2 arg3 harg3 arg6 x0 x1) 9 8 := by
  unfold kernelRun0_A.sl.HS0_18
  refine step_lo arg6.view (holds17 c arg2 harg2 arg3 harg3 arg6 x0 x1) _ _ (rowsAt arg3 harg3 x1 512 inb_S576x128_S64x128_512_0)
    (load_rows arg3 harg3 x1 8 512 rfl (by norm_num) _) fun p w f => ?_
  unfold kernelRun0_A.sl.r_10 kernelRun0_A.sl.r
  rw [load_image]
  exact pay16_apply x0 _ (kernelRun0_A.sl.v208 c arg2 harg2 arg3 harg3 arg6 x0 x1) p w f

/-- Tap 8, the lower half. -/
theorem holds19 : Holds x0 x1 (kernelRun0_A.sl.HS0_19 c arg2 harg2 arg3 harg3 arg6 x0 x1) 9 9 := by
  unfold kernelRun0_A.sl.HS0_19
  refine step_hi arg6.view (holds18 c arg2 harg2 arg3 harg3 arg6 x0 x1) _ _ (rowsAt arg3 harg3 x1 512 inb_S576x128_S64x128_512_0)
    (load_rows arg3 harg3 x1 8 512 rfl (by norm_num) _) fun p w f => ?_
  unfold kernelRun0_A.sl.r_10 kernelRun0_A.sl.r
  rw [load_image]
  exact pay17_apply x0 _ (kernelRun0_A.sl.v217 c arg2 harg2 arg3 harg3 arg6 x0 x1) p w f

end Run

end Cert.KernelIdeal.Chain

end
-- ==== Proof.KBias.lean ====
/-
  The kernel's last store read at an index.

  The body loads the whole accumulator `v [128, 128, 128]`, adds the bias block `b [128]` broadcast along the first
  two axes, and gives the sum a leading unit axis: at `(0, h, w, f)` the stored value is `v (h, w, f) + b f`.
-/
import proofs.«176972_j77137612636252_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Bias

open Cert.KernelIdeal Cert.KernelIdeal.Gen Idealize.ShloMosaic Idealize.ShloMosaic.ValueIdx

/-- The stored block at `(a, h, w, f)` (`a` ranges over the unit axis). -/
theorem pay4_apply (v : Vec Ideal S128x128x128 .f32) (b : Vec Ideal S128 .f32) (a : Fin 1) (h w f : Fin 128) :
    k0_pay4 (F := Ideal) v b (ix4 a h w f) = (v (ix3 h w f) : EReal) + b (ix1 f) := by
  have ha : a.val = 0 := by have := a.isLt; omega
  unfold k0_pay4
  -- the leading unit axis: the same row-major position
  refine (shapeCast_apply _ shapeCasts_S128x128x128_S1x128x128x128 (ix4 a h w f) (ix3 h w f) ?_).trans ?_
  · rw [Shape.rowMajor_val_three, Shape.rowMajor_val_four]
    show (h.val * 128 + w.val) * 128 + f.val = ((a.val * 128 + h.val) * 128 + w.val) * 128 + f.val
    rw [ha, Nat.zero_mul, Nat.zero_add]
  -- the sum, then the bias broadcast along the first two axes
  refine (addf_apply v _ (ix3 h w f)).trans ?_
  refine congrArg (fun y : EReal => (v (ix3 h w f) : EReal) + y) ?_
  refine (broadcastTo_apply _ broadcasts_S1x1x128_S128x128x128 (ix3 h w f) (ix3 (0 : Fin 1) (0 : Fin 1) f) (fun ax => ?_)).trans ?_
  · match ax with
    | ⟨0, _⟩ => rfl
    | ⟨1, _⟩ => rfl
    | ⟨2, _⟩ => rfl
  · refine shapeCast_apply b shapeCasts_S128_S1x1x128 (ix3 (0 : Fin 1) (0 : Fin 1) f) (ix1 f) ?_
    rw [Shape.rowMajor_val_one, Shape.rowMajor_val_three]
    show f.val = (0 * 1 + 0) * 128 + f.val
    omega

end Cert.KernelIdeal.Bias

end
-- ==== Proof.KOut.lean ====
/-
  The kernel's output block is the convolution of the staged blocks.

  After the eighteen updates the accumulator holds nine taps at every index; the body loads it whole, adds the bias
  block along the last axis and stores the sum through the whole output block.
-/
import proofs.«176972_j77137612636252_1_alg».proof.Proof.KChainSteps
import proofs.«176972_j77137612636252_1_alg».proof.Proof.KBias

set_option maxRecDepth 16384

noncomputable section

namespace Cert.KernelIdeal.Chain

open Cert.KernelIdeal Cert.KernelIdeal.Gen Idealize.ShloMosaic Idealize.ShloMosaic.TcCoe Idealize.ShloMosaic.Tactic
open Idealize.SL.Sem Idealize.ShloMosaic.ValueIdx Cert.Conv Cert.KernelIdeal.Pay

/-- The output block the body's run leaves: the convolution of the blocks. -/
theorem out_eq (c : Dev nD) (i : grid0.Coords) (arg2 : Memref sig .tc .vmem S1x128x128x64 .f32) (harg2 : arg2.IsWhole) (arg3 : Memref sig .tc .vmem S576x128 .f32) (harg3 : arg3.IsWhole) (arg4 : Memref sig .tc .vmem S128 .f32) (harg4 : arg4.IsWhole) (arg5 : Memref sig .tc .vmem S1x128x128x128 .f32) (harg5 : arg5.IsWhole) (arg6 : Memref sig .tc .vmem S128x128x128 .f32) (harg6 : arg6.IsWhole)
    (x0 : Vec Ideal S1x128x128x64 .f32) (x1 : Vec Ideal S576x128 .f32) (x2 : Vec Ideal S128 .f32) :
    out0_A_3 (F := Ideal) c i arg2 harg2 arg3 harg3 arg4 harg4 arg5 harg5 arg6 harg6 x0 x1 x2 = Conv.conv x0 x1 x2 := by
  unfold out0_A_3
  rw [View.read_writes_eq_canon _ _ _ (cover0_A_3 c i arg2 harg2 arg3 harg3 arg4 harg4 arg5 harg5 arg6 harg6 x0 x1 x2)]
  unfold kernelRun0_A
  dsimp only
  rw [View.canon_unit_zero hz4]
  have hb : View.readAt (Elt Ideal) arg4.view (Rect.unit (s := S128) ![0] ![128] inb_S128_S128_0).toLoadRect (harg4.unread x2) = x2 := by
    rw [View.readAt_eq_ld, harg4.read_unread, View.ld_unit_zero (S := S128) hz1]
  rw [hb]
  funext j
  obtain ⟨a, h, w, f, rfl⟩ : ∃ (a : Fin 1) (h w f : Fin 128), j = ix4 a h w f := ⟨j 0, j 1, j 2, j 3, eq_ix4 j⟩
  refine (Bias.pay4_apply (kernelRun0_A.sl.v223 c arg2 harg2 arg3 harg3 arg6 x0 x1) x2 a h w f).trans ?_
  have ha : a = 0 := Subsingleton.elim _ _
  subst ha
  rw [Conv.conv_apply]
  refine congrArg (· + (x2 (ix1 f) : EReal)) ?_
  unfold kernelRun0_A.sl.v223
  rw [readCov_whole, holds19 c arg2 harg2 arg3 harg3 arg6 x0 x1 h w f, ite_self]

end Cert.KernelIdeal.Chain

end
-- ==== Proof.KArray.lean ====
/-
  The kernel's result array.

  The grid is `16 × 2`: point `(b, g)` stages image `b`, weight columns `128 g … 128 g + 127` and the same bias
  entries, and writes block `(b, ·, ·, 128 g + ·)` of the result.  The body leaves in that block the convolution of
  the staged blocks, which is the convolution of the whole arguments restricted to the block (a tap reads the
  image only through batch entry `b` and the weights only through column `f`); the 32 blocks tile the result, so
  the array after the run is the convolution of the arguments.
-/
import proofs.«176972_j77137612636252_1_alg».proof.Proof.Gen.KernelIdeal.Value
import proofs.«176972_j77137612636252_1_alg».proof.Proof.KOut
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.Conv

variable (m : (ℓ : Loc nD τ sig) → Buf (Elt Ideal) ℓ) (ρ : Dev nD → PrngReg)

/-- The image, weight and bias arrays as the region finds them. -/
abbrev xarr (c : Dev nD) : Vec Ideal S16x128x128x64 .f32 := V m c main_arg0
abbrev karr (c : Dev nD) : Vec Ideal S576x256 .f32 := V m c main_arg1
abbrev barr (c : Dev nD) : Vec Ideal S256 .f32 := V m c main_arg2

/-- The blocks of them that point `t` stages. -/
abbrev xblk (c : Dev nD) (t : Fin cfg0.N) : Vec Ideal S1x128x128x64 .f32 := iblk m c 0 t
abbrev kblk (c : Dev nD) (t : Fin cfg0.N) : Vec Ideal S576x128 .f32 := iblk m c 1 t
abbrev bblk (c : Dev nD) (t : Fin cfg0.N) : Vec Ideal S128 .f32 := iblk m c 2 t

/-- The printed index maps over the grid: with `(b, 0, 0, g)` the block index of the result at point `t`, the image
    block is `(b, 0, 0, 0)`, the weight block `(0, g)`, the bias block `(g)`; `b < 16` and `g < 2`. -/
theorem index_maps : ∀ t : Fin cfg0.N,
    win0_0.index t (0 : Fin 4) = win0_3.index t (0 : Fin 4)
    ∧ win0_0.index t (1 : Fin 4) = 0 ∧ win0_0.index t (2 : Fin 4) = 0 ∧ win0_0.index t (3 : Fin 4) = 0
    ∧ win0_1.index t (0 : Fin 2) = 0 ∧ win0_1.index t (1 : Fin 2) = win0_3.index t (3 : Fin 4)
    ∧ win0_2.index t (0 : Fin 1) = win0_3.index t (3 : Fin 4)
    ∧ win0_3.index t (0 : Fin 4) < 16 ∧ win0_3.index t (1 : Fin 4) = 0 ∧ win0_3.index t (2 : Fin 4) = 0
    ∧ win0_3.index t (3 : Fin 4) < 2 :=
  (by decide +kernel : ∀ t : Fin grid0.N, _)

/-- Every block `(b, 0, 0, g)` of the result is some point's. -/
theorem result_block_onto : ∀ (b : Fin 16) (g : Fin 2), ∃ t : Fin cfg0.N, win0_3.index t = ![b.val, 0, 0, g.val] :=
  (by decide +kernel : ∀ (b : Fin 16) (g : Fin 2), ∃ t : Fin grid0.N, win0_3.index t = ![b.val, 0, 0, g.val])

/-- The image block at point `t` is image `b` of the batch. -/
theorem xblk_apply (c : Dev nD) (t : Fin cfg0.N) (b : Fin 16) (hb : b.val = win0_3.index t (0 : Fin 4))
    (h w : Fin 128) (ch : Fin 64) : xblk m c t (ix4 0 h w ch) = xarr m c (ix4 b h w ch) := by
  obtain ⟨e0, e1, e2, e3, -⟩ := index_maps t
  unfold xblk iblk
  rw [View.read_apply]
  show V m c main_arg0 (((cfg0.win 0).blk t).view.emb (ix4 0 h w ch)) = V m c main_arg0 (ix4 b h w ch)
  refine congrArg _ ?_
  funext a
  apply Fin.ext
  match a with
  | ⟨0, _⟩ => show win0_0.index t (0 : Fin 4) * 1 + 1 * 0 = b.val; omega
  | ⟨1, _⟩ => show win0_0.index t (1 : Fin 4) * 128 + 1 * h.val = h.val; omega
  | ⟨2, _⟩ => show win0_0.index t (2 : Fin 4) * 128 + 1 * w.val = w.val; omega
  | ⟨3, _⟩ => show win0_0.index t (3 : Fin 4) * 64 + 1 * ch.val = ch.val; omega

/-- The weight block at point `t` is columns `128 g … 128 g + 127`. -/
theorem kblk_apply (c : Dev nD) (t : Fin cfg0.N) (f : Fin 128) (f' : Fin 256)
    (hf : f'.val = win0_3.index t (3 : Fin 4) * 128 + f.val) (r : Fin 576) :
    kblk m c t (ix2 r f) = karr m c (ix2 r f') := by
  obtain ⟨-, -, -, -, e0, e1, -⟩ := index_maps t
  unfold kblk iblk
  rw [View.read_apply]
  show V m c main_arg1 (((cfg0.win 1).blk t).view.emb (ix2 r f)) = V m c main_arg1 (ix2 r f')
  refine congrArg _ ?_
  funext a
  apply Fin.ext
  match a with
  | ⟨0, _⟩ => show win0_1.index t (0 : Fin 2) * 576 + 1 * r.val = r.val; omega
  | ⟨1, _⟩ => show win0_1.index t (1 : Fin 2) * 128 + 1 * f.val = f'.val; omega

/-- The bias block at point `t` is entries `128 g … 128 g + 127`. -/
theorem bblk_apply (c : Dev nD) (t : Fin cfg0.N) (f : Fin 128) (f' : Fin 256)
    (hf : f'.val = win0_3.index t (3 : Fin 4) * 128 + f.val) :
    bblk m c t (ix1 f) = barr m c (ix1 f') := by
  obtain ⟨-, -, -, -, -, -, e0, -⟩ := index_maps t
  unfold bblk iblk
  rw [View.read_apply]
  show V m c main_arg2 (((cfg0.win 2).blk t).view.emb (ix1 f)) = V m c main_arg2 (ix1 f')
  refine congrArg _ ?_
  funext a
  apply Fin.ext
  match a with
  | ⟨0, _⟩ => show win0_2.index t (0 : Fin 1) * 128 + 1 * f.val = f'.val; omega

/-- The convolution of the blocks point `t` stages is the convolution of the arrays on the block it writes. -/
theorem conv_restrict (c : Dev nD) (t : Fin cfg0.N) (b : Fin 16) (hb : b.val = win0_3.index t (0 : Fin 4))
    (h w : Fin 128) (f : Fin 128) (f' : Fin 256) (hf : f'.val = win0_3.index t (3 : Fin 4) * 128 + f.val) :
    Conv.conv (xblk m c t) (kblk m c t) (bblk m c t) (ix4 0 h w f)
      = Conv.conv (xarr m c) (karr m c) (barr m c) (ix4 b h w f') := by
  rw [Conv.conv_apply, Conv.conv_apply, bblk_apply m c t f f' hf,
    Conv.accum_congr (xblk m c t) (kblk m c t) (xarr m c) (karr m c) 0 b f f'
      (fun h' w' ch => xblk_apply m c t b hb h' w' ch) (fun r => kblk_apply m c t f f' hf r) h w 9]

/-- What point `t` writes back is block `t` of the convolution of the argument arrays. -/
theorem flushed_conv (c : Dev nD) (t : Fin cfg0.N) :
    (dats m 0 c).flushed 3 t
      = ((cfg0.win 3).blk t).view.read (Elt Ideal) (Conv.conv (xarr m c) (karr m c) (barr m c)) := by
  rw [Value.flushed3_A, Chain.out_eq]
  obtain ⟨-, -, -, -, -, -, -, l0, z1, z2, l3⟩ := index_maps t
  funext j
  have j0 : (j 0).val < 1 := (j 0).isLt
  have j1 : (j 1).val < 128 := (j 1).isLt
  have j2 : (j 2).val < 128 := (j 2).isLt
  have j3 : (j 3).val < 128 := (j 3).isLt
  rw [View.read_apply]
  show Conv.conv (xblk m c t) (kblk m c t) (bblk m c t) ((cfg0.win 3).xinj (grid0.coords t) j)
    = Conv.conv (xarr m c) (karr m c) (barr m c) (((cfg0.win 3).blk t).view.emb j)
  have el : (cfg0.win 3).xinj (grid0.coords t) j
      = ix4 (0 : Fin 1) (⟨(j 1).val, j1⟩ : Fin 128) (⟨(j 2).val, j2⟩ : Fin 128) (⟨(j 3).val, j3⟩ : Fin 128) := by
    funext a
    apply Fin.ext
    match a with
    | ⟨0, _⟩ => show (j 0).val = 0; omega
    | ⟨1, _⟩ => rfl
    | ⟨2, _⟩ => rfl
    | ⟨3, _⟩ => rfl
  have er : ((cfg0.win 3).blk t).view.emb j
      = ix4 (⟨win0_3.index t (0 : Fin 4), l0⟩ : Fin 16) (⟨(j 1).val, j1⟩ : Fin 128) (⟨(j 2).val, j2⟩ : Fin 128)
          (⟨win0_3.index t (3 : Fin 4) * 128 + (j 3).val, by omega⟩ : Fin 256) := by
    funext a
    apply Fin.ext
    match a with
    | ⟨0, _⟩ => show win0_3.index t (0 : Fin 4) * 1 + 1 * (j 0).val = win0_3.index t (0 : Fin 4); omega
    | ⟨1, _⟩ => show win0_3.index t (1 : Fin 4) * 128 + 1 * (j 1).val = (j 1).val; omega
    | ⟨2, _⟩ => show win0_3.index t (2 : Fin 4) * 128 + 1 * (j 2).val = (j 2).val; omega
    | ⟨3, _⟩ => show win0_3.index t (3 : Fin 4) * 128 + 1 * (j 3).val = win0_3.index t (3 : Fin 4) * 128 + (j 3).val; omega
  exact (congrArg _ el).trans ((conv_restrict m c t _ rfl _ _ _ _ rfl).trans (congrArg _ er.symm))

/-- An index of the result is in point `t`'s block iff each coordinate is in the block's range on its axis. -/
theorem mem_result_block (t : Fin cfg0.N) (i : S16x128x128x256.Idx) :
    i ∈ ((cfg0.win 3).blk t).view.set ↔ ∀ a : Fin 4, win0_3.index t a * S1x128x128x128.size a ≤ (i a).val
      ∧ (i a).val < win0_3.index t a * S1x128x128x128.size a + S1x128x128x128.size a := by
  show i ∈ ((View.whole main_v0).slice (win0_3.rect t)).set ↔ _
  rw [View.set_slice_whole, Rect.mem_set_unit]
  exact Iff.rfl

/-- The 32 blocks tile the result: index `(b, h, w, f)` is in the block of the point with block index `(b, 0, 0, f / 128)`. -/
theorem result_blocks_tile (i : S16x128x128x256.Idx) :
    ∃ t : Fin cfg0.N, (cfg0.win 3).flush t = true ∧ i ∈ ((cfg0.win 3).blk t).view.set := by
  have i0 : (i 0).val < 16 := (i 0).isLt
  have i1 : (i 1).val < 128 := (i 1).isLt
  have i2 : (i 2).val < 128 := (i 2).isLt
  have i3 : (i 3).val < 256 := (i 3).isLt
  obtain ⟨t, ht⟩ := result_block_onto ⟨(i 0).val, i0⟩ ⟨(i 3).val / 128, by omega⟩
  have q0 : win0_3.index t (0 : Fin 4) = (i 0).val := congrFun ht 0
  have q1 : win0_3.index t (1 : Fin 4) = 0 := congrFun ht 1
  have q2 : win0_3.index t (2 : Fin 4) = 0 := congrFun ht 2
  have q3 : win0_3.index t (3 : Fin 4) = (i 3).val / 128 := congrFun ht 3
  refine ⟨t, flush0_3 t, ?_⟩
  rw [mem_result_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- The result array after the run is the convolution of the argument arrays. -/
theorem final3 (c : Dev nD) :
    (dats m 0 c).arrAt 3 cfg0.N
      = Conv.conv (m ((c : Thread nD τ).loc main_arg0)) (m ((c : Thread nD τ).loc main_arg1)) (m ((c : Thread nD τ).loc main_arg2)) :=
  (dats m 0 c).arrAt_eq_of_cover 3 (Conv.conv (xarr m c) (karr m c) (barr m c)) (fun t _ => flushed_conv m c t) result_blocks_tile

/-- The kernel's run with its result named. -/
theorem run : θ_run defs (onTc (τ := τ) (main (F := Ideal))) ⟨m, fun _ => 0, ρ⟩ fun r => ∀ c : Dev nD,
      r.2.mem ((c : Thread nD τ).loc main_v0)
        = Conv.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Value.run_blocks m ρ)

end Cert.KernelIdeal.Array

end
-- ==== Proof.RefRolls.lean ====
/-
  The reference's circular rolls read at an index.

  `jnp.roll` by a static shift along one axis is two slices of the array concatenated in the other order.  For
  the shifts -1, 0 and +1 along an axis of extent 128 the pieces have extents (127, 1), (128, 0) and (1, 127);
  in each case the result at position `i` on that axis is the array at `rollSrc d i` (`d = 0, 1, 2`), the
  other coordinates unchanged.  Stated for the rows (axis 1) and the columns (axis 2) of a `[16, 128, 128, 64]` array.
-/
import proofs.«176972_j77137612636252_1_alg».proof.ReferenceIdeal
import proofs.«176972_j77137612636252_1_alg».proof.Proof.ConvSpec
import Idealize.ShloMosaic.Lib.Pipeline.Value
import Idealize.ShloMosaic.Lib.ValueLayout

noncomputable section

namespace Cert.ReferenceIdeal.Rolls

open Cert.ReferenceIdeal Idealize.ShloMosaic Idealize.ShloMosaic.ValueIdx Cert.Conv

/-- Rows shifted by -1. -/
theorem rollH0 {α : Type} (x : S16x128x128x64.Idx → α)
    (hs1 : S16x128x128x64.Slices ![0, 1, 0, 0] S16x127x128x64) (hs2 : S16x128x128x64.Slices ![0, 0, 0, 0] S16x1x128x64)
    (hc : Shape.Concatenates [S16x127x128x64, S16x1x128x64] S16x128x128x64 1)
    (b : Fin 16) (h w : Fin 128) (c : Fin 64) :
    concatenate S16x128x128x64 1 [⟨S16x127x128x64, extractStridedSlice S16x127x128x64 ![0, 1, 0, 0] x hs1⟩,
        ⟨S16x1x128x64, extractStridedSlice S16x1x128x64 ![0, 0, 0, 0] x hs2⟩] hc (ix4 b h w c)
      = x (ix4 b (rollSrc 0 h) w c) := by
  have hv := h.isLt
  by_cases hlt : h.val < 127
  · -- the position lies in the first piece
    refine (concatenate_pair_apply_left (1 : Fin S16x128x128x64.rank) _ _ hc (ix4 b h w c) rfl
      (ix4 b ⟨h.val, hlt⟩ w c) ?_).trans ?_
    · intro ax
      match ax with
      | ⟨0, _⟩ => rfl
      | ⟨1, _⟩ => rfl
      | ⟨2, _⟩ => rfl
      | ⟨3, _⟩ => rfl
    · refine slice4_axis1_apply 1 x hs1 b ⟨h.val, hlt⟩ w c (rollSrc 0 h) ?_
      show (h.val + 129 - 0) % 128 = 1 + h.val
      omega
  · -- the position lies in the second piece, the first piece's extent less
    have hlt2 : h.val - 127 < 1 := by omega
    refine (concatenate_pair_apply_right (1 : Fin S16x128x128x64.rank) _ _ hc (ix4 b h w c) rfl rfl
      (ix4 b ⟨h.val - 127, hlt2⟩ w c) ?_ ?_).trans ?_
    · intro ax hax
      match ax, hax with
      | ⟨0, _⟩, _ => rfl
      | ⟨1, _⟩, hax => exact absurd rfl hax
      | ⟨2, _⟩, _ => rfl
      | ⟨3, _⟩, _ => rfl
    · show h.val - 127 + 127 = h.val
      omega
    · refine slice4_axis1_apply 0 x hs2 b ⟨h.val - 127, hlt2⟩ w c (rollSrc 0 h) ?_
      show (h.val + 129 - 0) % 128 = 0 + (h.val - 127)
      omega

/-- Rows not shifted (the second piece is empty). -/
theorem rollH1 {α : Type} (x : S16x128x128x64.Idx → α)
    (hs1 : S16x128x128x64.Slices ![0, 0, 0, 0] S16x128x128x64) (hs2 : S16x128x128x64.Slices ![0, 0, 0, 0] S16x0x128x64)
    (hc : Shape.Concatenates [S16x128x128x64, S16x0x128x64] S16x128x128x64 1)
    (b : Fin 16) (h w : Fin 128) (c : Fin 64) :
    concatenate S16x128x128x64 1 [⟨S16x128x128x64, extractStridedSlice S16x128x128x64 ![0, 0, 0, 0] x hs1⟩,
        ⟨S16x0x128x64, extractStridedSlice S16x0x128x64 ![0, 0, 0, 0] x hs2⟩] hc (ix4 b h w c)
      = x (ix4 b (rollSrc 1 h) w c) := by
  -- the second piece is empty: every position lies in the first piece, which is the whole array
  have hv := h.isLt
  refine (concatenate_pair_apply_left (1 : Fin S16x128x128x64.rank) _ _ hc (ix4 b h w c) rfl
    (ix4 b ⟨h.val, hv⟩ w c) ?_).trans ?_
  · intro ax
    match ax with
    | ⟨0, _⟩ => rfl
    | ⟨1, _⟩ => rfl
    | ⟨2, _⟩ => rfl
    | ⟨3, _⟩ => rfl
  · refine slice4_axis1_apply 0 x hs1 b ⟨h.val, hv⟩ w c (rollSrc 1 h) ?_
    show (h.val + 129 - 1) % 128 = 0 + h.val
    omega

/-- Rows shifted by +1. -/
theorem rollH2 {α : Type} (x : S16x128x128x64.Idx → α)
    (hs1 : S16x128x128x64.Slices ![0, 127, 0, 0] S16x1x128x64) (hs2 : S16x128x128x64.Slices ![0, 0, 0, 0] S16x127x128x64)
    (hc : Shape.Concatenates [S16x1x128x64, S16x127x128x64] S16x128x128x64 1)
    (b : Fin 16) (h w : Fin 128) (c : Fin 64) :
    concatenate S16x128x128x64 1 [⟨S16x1x128x64, extractStridedSlice S16x1x128x64 ![0, 127, 0, 0] x hs1⟩,
        ⟨S16x127x128x64, extractStridedSlice S16x127x128x64 ![0, 0, 0, 0] x hs2⟩] hc (ix4 b h w c)
      = x (ix4 b (rollSrc 2 h) w c) := by
  have hv := h.isLt
  by_cases hlt : h.val < 1
  · -- the position lies in the first piece
    refine (concatenate_pair_apply_left (1 : Fin S16x128x128x64.rank) _ _ hc (ix4 b h w c) rfl
      (ix4 b ⟨h.val, hlt⟩ w c) ?_).trans ?_
    · intro ax
      match ax with
      | ⟨0, _⟩ => rfl
      | ⟨1, _⟩ => rfl
      | ⟨2, _⟩ => rfl
      | ⟨3, _⟩ => rfl
    · refine slice4_axis1_apply 127 x hs1 b ⟨h.val, hlt⟩ w c (rollSrc 2 h) ?_
      show (h.val + 129 - 2) % 128 = 127 + h.val
      omega
  · -- the position lies in the second piece, the first piece's extent less
    have hlt2 : h.val - 1 < 127 := by omega
    refine (concatenate_pair_apply_right (1 : Fin S16x128x128x64.rank) _ _ hc (ix4 b h w c) rfl rfl
      (ix4 b ⟨h.val - 1, hlt2⟩ w c) ?_ ?_).trans ?_
    · intro ax hax
      match ax, hax with
      | ⟨0, _⟩, _ => rfl
      | ⟨1, _⟩, hax => exact absurd rfl hax
      | ⟨2, _⟩, _ => rfl
      | ⟨3, _⟩, _ => rfl
    · show h.val - 1 + 1 = h.val
      omega
    · refine slice4_axis1_apply 0 x hs2 b ⟨h.val - 1, hlt2⟩ w c (rollSrc 2 h) ?_
      show (h.val + 129 - 2) % 128 = 0 + (h.val - 1)
      omega

/-- Columns shifted by -1. -/
theorem rollW0 {α : Type} (x : S16x128x128x64.Idx → α)
    (hs1 : S16x128x128x64.Slices ![0, 0, 1, 0] S16x128x127x64) (hs2 : S16x128x128x64.Slices ![0, 0, 0, 0] S16x128x1x64)
    (hc : Shape.Concatenates [S16x128x127x64, S16x128x1x64] S16x128x128x64 2)
    (b : Fin 16) (h w : Fin 128) (c : Fin 64) :
    concatenate S16x128x128x64 2 [⟨S16x128x127x64, extractStridedSlice S16x128x127x64 ![0, 0, 1, 0] x hs1⟩,
        ⟨S16x128x1x64, extractStridedSlice S16x128x1x64 ![0, 0, 0, 0] x hs2⟩] hc (ix4 b h w c)
      = x (ix4 b h (rollSrc 0 w) c) := by
  have hv := w.isLt
  by_cases hlt : w.val < 127
  · -- the position lies in the first piece
    refine (concatenate_pair_apply_left (2 : Fin S16x128x128x64.rank) _ _ hc (ix4 b h w c) rfl
      (ix4 b h ⟨w.val, hlt⟩ c) ?_).trans ?_
    · intro ax
      match ax with
      | ⟨0, _⟩ => rfl
      | ⟨1, _⟩ => rfl
      | ⟨2, _⟩ => rfl
      | ⟨3, _⟩ => rfl
    · refine slice4_axis2_apply 1 x hs1 b h ⟨w.val, hlt⟩ c (rollSrc 0 w) ?_
      show (w.val + 129 - 0) % 128 = 1 + w.val
      omega
  · -- the position lies in the second piece, the first piece's extent less
    have hlt2 : w.val - 127 < 1 := by omega
    refine (concatenate_pair_apply_right (2 : Fin S16x128x128x64.rank) _ _ hc (ix4 b h w c) rfl rfl
      (ix4 b h ⟨w.val - 127, hlt2⟩ c) ?_ ?_).trans ?_
    · intro ax hax
      match ax, hax with
      | ⟨0, _⟩, _ => rfl
      | ⟨2, _⟩, hax => exact absurd rfl hax
      | ⟨1, _⟩, _ => rfl
      | ⟨3, _⟩, _ => rfl
    · show w.val - 127 + 127 = w.val
      omega
    · refine slice4_axis2_apply 0 x hs2 b h ⟨w.val - 127, hlt2⟩ c (rollSrc 0 w) ?_
      show (w.val + 129 - 0) % 128 = 0 + (w.val - 127)
      omega

/-- Columns not shifted (the second piece is empty). -/
theorem rollW1 {α : Type} (x : S16x128x128x64.Idx → α)
    (hs1 : S16x128x128x64.Slices ![0, 0, 0, 0] S16x128x128x64) (hs2 : S16x128x128x64.Slices ![0, 0, 0, 0] S16x128x0x64)
    (hc : Shape.Concatenates [S16x128x128x64, S16x128x0x64] S16x128x128x64 2)
    (b : Fin 16) (h w : Fin 128) (c : Fin 64) :
    concatenate S16x128x128x64 2 [⟨S16x128x128x64, extractStridedSlice S16x128x128x64 ![0, 0, 0, 0] x hs1⟩,
        ⟨S16x128x0x64, extractStridedSlice S16x128x0x64 ![0, 0, 0, 0] x hs2⟩] hc (ix4 b h w c)
      = x (ix4 b h (rollSrc 1 w) c) := by
  -- the second piece is empty: every position lies in the first piece, which is the whole array
  have hv := w.isLt
  refine (concatenate_pair_apply_left (2 : Fin S16x128x128x64.rank) _ _ hc (ix4 b h w c) rfl
    (ix4 b h ⟨w.val, hv⟩ c) ?_).trans ?_
  · intro ax
    match ax with
    | ⟨0, _⟩ => rfl
    | ⟨1, _⟩ => rfl
    | ⟨2, _⟩ => rfl
    | ⟨3, _⟩ => rfl
  · refine slice4_axis2_apply 0 x hs1 b h ⟨w.val, hv⟩ c (rollSrc 1 w) ?_
    show (w.val + 129 - 1) % 128 = 0 + w.val
    omega

/-- Columns shifted by +1. -/
theorem rollW2 {α : Type} (x : S16x128x128x64.Idx → α)
    (hs1 : S16x128x128x64.Slices ![0, 0, 127, 0] S16x128x1x64) (hs2 : S16x128x128x64.Slices ![0, 0, 0, 0] S16x128x127x64)
    (hc : Shape.Concatenates [S16x128x1x64, S16x128x127x64] S16x128x128x64 2)
    (b : Fin 16) (h w : Fin 128) (c : Fin 64) :
    concatenate S16x128x128x64 2 [⟨S16x128x1x64, extractStridedSlice S16x128x1x64 ![0, 0, 127, 0] x hs1⟩,
        ⟨S16x128x127x64, extractStridedSlice S16x128x127x64 ![0, 0, 0, 0] x hs2⟩] hc (ix4 b h w c)
      = x (ix4 b h (rollSrc 2 w) c) := by
  have hv := w.isLt
  by_cases hlt : w.val < 1
  · -- the position lies in the first piece
    refine (concatenate_pair_apply_left (2 : Fin S16x128x128x64.rank) _ _ hc (ix4 b h w c) rfl
      (ix4 b h ⟨w.val, hlt⟩ c) ?_).trans ?_
    · intro ax
      match ax with
      | ⟨0, _⟩ => rfl
      | ⟨1, _⟩ => rfl
      | ⟨2, _⟩ => rfl
      | ⟨3, _⟩ => rfl
    · refine slice4_axis2_apply 127 x hs1 b h ⟨w.val, hlt⟩ c (rollSrc 2 w) ?_
      show (w.val + 129 - 2) % 128 = 127 + w.val
      omega
  · -- the position lies in the second piece, the first piece's extent less
    have hlt2 : w.val - 1 < 127 := by omega
    refine (concatenate_pair_apply_right (2 : Fin S16x128x128x64.rank) _ _ hc (ix4 b h w c) rfl rfl
      (ix4 b h ⟨w.val - 1, hlt2⟩ c) ?_ ?_).trans ?_
    · intro ax hax
      match ax, hax with
      | ⟨0, _⟩, _ => rfl
      | ⟨2, _⟩, hax => exact absurd rfl hax
      | ⟨1, _⟩, _ => rfl
      | ⟨3, _⟩, _ => rfl
    · show w.val - 1 + 1 = w.val
      omega
    · refine slice4_axis2_apply 0 x hs2 b h ⟨w.val - 1, hlt2⟩ c (rollSrc 2 w) ?_
      show (w.val + 129 - 2) % 128 = 0 + (w.val - 1)
      omega

end Cert.ReferenceIdeal.Rolls

end
-- ==== Proof.RefValue.lean ====
/-
  The reference's result term is the convolution.

  The reference rolls the image nine times (rows by `s % 3 - 1`, columns by `s / 3 - 1` for tap `s`), gives each
  rolled copy a unit axis, concatenates the nine along it to `[16, 128, 128, 9, 64]`, flattens the last two axes to
  576 (entry `64 s + c` is tap `s`, channel `c`), multiplies by the weights `[576, 256]` and adds the bias broadcast
  along the last axis.  At `(b, h, w, f)` that is the bias at `f` plus the sum over all 576 pairs of
  `Conv.term`, which `Conv.sum_term_eq_accum` turns into the nine taps added in order: `Conv.conv`.
-/
import proofs.«176972_j77137612636252_1_alg».proof.ReferenceIdeal
import proofs.«176972_j77137612636252_1_alg».proof.Proof.Gen.ReferenceIdeal
import proofs.«176972_j77137612636252_1_alg».proof.Proof.ConvSpec
import proofs.«176972_j77137612636252_1_alg».proof.Proof.RefRolls
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.ReferenceIdeal.RefValue

open Cert.ReferenceIdeal Cert.ReferenceIdeal.Gen Idealize.ShloMosaic Idealize.ShloMosaic.TcCoe Idealize.ShloMosaic.ValueIdx Cert.Conv

variable {F : FTy → Type} [FloatOps F]

/-- The reference's operations composed, as a function of its three arguments. -/
def refTerm (x : Vec F S16x128x128x64 .f32) (k : Vec F S576x256 .f32) (bias : Vec F S256 .f32) : Vec F S16x128x128x256 .f32 :=
  addf (Host.dotGeneral dot_S16x128x128x576_S576x256_S16x128x128x256_3_0_012_1_n_n none (shapeCast _ (concatenate S16x128x128x9x64 3 [⟨S16x128x128x1x64, (broadcastInDim S16x128x128x1x64 ![0, 1, 2, 4] bcast_S16x128x128x64_S16x128x128x1x64_0_1_2_4 (concatenate S16x128x128x64 2 [⟨S16x128x127x64, (extractStridedSlice S16x128x127x64 ![0, 0, 1, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x127x64_0_0_1_0)⟩, ⟨S16x128x1x64, (extractStridedSlice S16x128x1x64 ![0, 0, 0, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x1x64_0_0_0_0)⟩] concatenates_S16x128x127x64_S16x128x1x64_S16x128x128x64_d2))⟩, ⟨S16x128x128x1x64, (broadcastInDim S16x128x128x1x64 ![0, 1, 2, 4] bcast_S16x128x128x64_S16x128x128x1x64_0_1_2_4 (concatenate S16x128x128x64 2 [⟨S16x128x127x64, (extractStridedSlice S16x128x127x64 ![0, 0, 1, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x127x64_0_0_1_0)⟩, ⟨S16x128x1x64, (extractStridedSlice S16x128x1x64 ![0, 0, 0, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x1x64_0_0_0_0)⟩] concatenates_S16x128x127x64_S16x128x1x64_S16x128x128x64_d2))⟩, ⟨S16x128x128x1x64, (broadcastInDim S16x128x128x1x64 ![0, 1, 2, 4] bcast_S16x128x128x64_S16x128x128x1x64_0_1_2_4 (concatenate S16x128x128x64 2 [⟨S16x128x127x64, (extractStridedSlice S16x128x127x64 ![0, 0, 1, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x127x64_0_0_1_0)⟩, ⟨S16x128x1x64, (extractStridedSlice S16x128x1x64 ![0, 0, 0, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x1x64_0_0_0_0)⟩] concatenates_S16x128x127x64_S16x128x1x64_S16x128x128x64_d2))⟩, ⟨S16x128x128x1x64, (broadcastInDim S16x128x128x1x64 ![0, 1, 2, 4] bcast_S16x128x128x64_S16x128x128x1x64_0_1_2_4 (concatenate S16x128x128x64 2 [⟨S16x128x128x64, (extractStridedSlice S16x128x128x64 ![0, 0, 0, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x128x64_0_0_0_0)⟩, ⟨S16x128x0x64, (extractStridedSlice S16x128x0x64 ![0, 0, 0, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x0x64_0_0_0_0)⟩] concatenates_S16x128x128x64_S16x128x0x64_S16x128x128x64_d2))⟩, ⟨S16x128x128x1x64, (broadcastInDim S16x128x128x1x64 ![0, 1, 2, 4] bcast_S16x128x128x64_S16x128x128x1x64_0_1_2_4 (concatenate S16x128x128x64 2 [⟨S16x128x128x64, (extractStridedSlice S16x128x128x64 ![0, 0, 0, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x128x64_0_0_0_0)⟩, ⟨S16x128x0x64, (extractStridedSlice S16x128x0x64 ![0, 0, 0, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x0x64_0_0_0_0)⟩] concatenates_S16x128x128x64_S16x128x0x64_S16x128x128x64_d2))⟩, ⟨S16x128x128x1x64, (broadcastInDim S16x128x128x1x64 ![0, 1, 2, 4] bcast_S16x128x128x64_S16x128x128x1x64_0_1_2_4 (concatenate S16x128x128x64 2 [⟨S16x128x128x64, (extractStridedSlice S16x128x128x64 ![0, 0, 0, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x128x64_0_0_0_0)⟩, ⟨S16x128x0x64, (extractStridedSlice S16x128x0x64 ![0, 0, 0, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x0x64_0_0_0_0)⟩] concatenates_S16x128x128x64_S16x128x0x64_S16x128x128x64_d2))⟩, ⟨S16x128x128x1x64, (broadcastInDim S16x128x128x1x64 ![0, 1, 2, 4] bcast_S16x128x128x64_S16x128x128x1x64_0_1_2_4 (concatenate S16x128x128x64 2 [⟨S16x128x1x64, (extractStridedSlice S16x128x1x64 ![0, 0, 127, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x1x64_0_0_127_0)⟩, ⟨S16x128x127x64, (extractStridedSlice S16x128x127x64 ![0, 0, 0, 0] (concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1) slices_S16x128x128x64_S16x128x127x64_0_0_0_0)⟩] concatenates_S16x128x1x64_S16x128x127x64_S16x128x128x64_d2))⟩, ⟨S16x128x128x1x64, (broadcastInDim S16x128x128x1x64 ![0, 1, 2, 4] bcast_S16x128x128x64_S16x128x128x1x64_0_1_2_4 (concatenate S16x128x128x64 2 [⟨S16x128x1x64, (extractStridedSlice S16x128x1x64 ![0, 0, 127, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x1x64_0_0_127_0)⟩, ⟨S16x128x127x64, (extractStridedSlice S16x128x127x64 ![0, 0, 0, 0] (concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1) slices_S16x128x128x64_S16x128x127x64_0_0_0_0)⟩] concatenates_S16x128x1x64_S16x128x127x64_S16x128x128x64_d2))⟩, ⟨S16x128x128x1x64, (broadcastInDim S16x128x128x1x64 ![0, 1, 2, 4] bcast_S16x128x128x64_S16x128x128x1x64_0_1_2_4 (concatenate S16x128x128x64 2 [⟨S16x128x1x64, (extractStridedSlice S16x128x1x64 ![0, 0, 127, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x1x64_0_0_127_0)⟩, ⟨S16x128x127x64, (extractStridedSlice S16x128x127x64 ![0, 0, 0, 0] (concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1) slices_S16x128x128x64_S16x128x127x64_0_0_0_0)⟩] concatenates_S16x128x1x64_S16x128x127x64_S16x128x128x64_d2))⟩] concatenates_S16x128x128x1x64_S16x128x128x1x64_S16x128x128x1x64_S16x128x128x1x64_S16x128x128x1x64_S16x128x128x1x64_S16x128x128x1x64_S16x128x128x1x64_S16x128x128x1x64_S16x128x128x9x64_d3) shapeCasts_S16x128x128x9x64_S16x128x128x576) k) (broadcastInDim S16x128x128x256 ![0, 1, 2, 3] bcast_S1x1x1x256_S16x128x128x256_0_1_2_3 (broadcastInDim S1x1x1x256 ![3] bcast_S256_S1x1x1x256_3 bias))

/-! ## The operations after the rolls, each read at explicit coordinates -/

/-- The bias broadcast to the result's shape reads the bias at the last coordinate. -/
theorem bias_apply {α : Type} (bias : S256.Idx → α) (b : Fin 16) (h w : Fin 128) (f : Fin 256) :
    broadcastInDim S16x128x128x256 ![0, 1, 2, 3] bcast_S1x1x1x256_S16x128x128x256_0_1_2_3
      (broadcastInDim S1x1x1x256 ![3] bcast_S256_S1x1x1x256_3 bias) (ix4 b h w f) = bias (ix1 f) := by
  refine (broadcastInDim_apply _ bcast_S1x1x1x256_S16x128x128x256_0_1_2_3 _ (ix4 b h w f)
    (ix4 (0 : Fin 1) (0 : Fin 1) (0 : Fin 1) f) (fun a => match a with
    | ⟨0, _⟩ => by show 0 = if (1 : Nat) = 1 then 0 else b.val; rw [if_pos rfl]
    | ⟨1, _⟩ => by show 0 = if (1 : Nat) = 1 then 0 else h.val; rw [if_pos rfl]
    | ⟨2, _⟩ => by show 0 = if (1 : Nat) = 1 then 0 else w.val; rw [if_pos rfl]
    | ⟨3, _⟩ => by show f.val = if (256 : Nat) = 1 then 0 else f.val; rw [if_neg (by decide)])).trans ?_
  exact broadcastInDim_apply _ bcast_S256_S1x1x1x256_3 bias (ix4 (0 : Fin 1) (0 : Fin 1) (0 : Fin 1) f) (ix1 f)
    (fun a => match a with
    | ⟨0, _⟩ => by show f.val = if (256 : Nat) = 1 then 0 else f.val; rw [if_neg (by decide)])

/-- A rolled copy given its unit axis reads the copy at the other four coordinates. -/
theorem unit_apply {α : Type} (y : S16x128x128x64.Idx → α) (b : Fin 16) (h w : Fin 128) (u : Fin 1) (c : Fin 64) :
    broadcastInDim S16x128x128x1x64 ![0, 1, 2, 4] bcast_S16x128x128x64_S16x128x128x1x64_0_1_2_4 y (ix5 b h w u c)
      = y (ix4 b h w c) :=
  broadcastInDim_apply _ bcast_S16x128x128x64_S16x128x128x1x64_0_1_2_4 y (ix5 b h w u c) (ix4 b h w c)
    (fun a => match a with
    | ⟨0, _⟩ => by show b.val = if (16 : Nat) = 1 then 0 else b.val; rw [if_neg (by decide)]
    | ⟨1, _⟩ => by show h.val = if (128 : Nat) = 1 then 0 else h.val; rw [if_neg (by decide)]
    | ⟨2, _⟩ => by show w.val = if (128 : Nat) = 1 then 0 else w.val; rw [if_neg (by decide)]
    | ⟨3, _⟩ => by show c.val = if (64 : Nat) = 1 then 0 else c.val; rw [if_neg (by decide)])

/-- The last two axes flattened: entry `kk` of the 576 is tap `kk / 64`, channel `kk % 64`. -/
theorem flat_apply {α : Type} (z : S16x128x128x9x64.Idx → α) (b : Fin 16) (h w : Fin 128) (kk : Fin 576) :
    shapeCast S16x128x128x576 z shapeCasts_S16x128x128x9x64_S16x128x128x576 (ix4 b h w kk)
      = z (ix5 b h w ⟨kk.val / 64, by have := kk.isLt; omega⟩ ⟨kk.val % 64, Nat.mod_lt _ (by norm_num)⟩) := by
  refine shapeCast_apply z shapeCasts_S16x128x128x9x64_S16x128x128x576 (ix4 b h w kk) _ ?_
  rewrite [Shape.rowMajor_val_five, Shape.rowMajor_val_four]
  have hk := kk.isLt
  show (((b.val * 128 + h.val) * 128 + w.val) * 9 + kk.val / 64) * 64 + kk.val % 64
    = ((b.val * 128 + h.val) * 128 + w.val) * 576 + kk.val
  omega

/-! ## The dense layer at explicit coordinates -/

theorem lhs_0 (i : S16x128x128x256.Idx) (q : dot_S16x128x128x576_S576x256_S16x128x128x256_3_0_012_1_n_n.contr.Idx) :
    (dot_S16x128x128x576_S576x256_S16x128x128x256_3_0_012_1_n_n.lhsIdx i q 0).val = (i 0).val := by
  unfold DotDims.lhsIdx
  rw [dif_neg (show ¬(0 : Fin S16x128x128x576.rank) ∈ dot_S16x128x128x576_S576x256_S16x128x128x256_3_0_012_1_n_n.lhsBatch by decide), dif_pos (show (0 : Fin S16x128x128x576.rank) ∈ dot_S16x128x128x576_S576x256_S16x128x128x256_3_0_012_1_n_n.lhsNonContracting by decide)]
  rfl
theorem lhs_1 (i : S16x128x128x256.Idx) (q : dot_S16x128x128x576_S576x256_S16x128x128x256_3_0_012_1_n_n.contr.Idx) :
    (dot_S16x128x128x576_S576x256_S16x128x128x256_3_0_012_1_n_n.lhsIdx i q 1).val = (i 1).val := by
  unfold DotDims.lhsIdx
  rw [dif_neg (show ¬(1 : Fin S16x128x128x576.rank) ∈ dot_S16x128x128x576_S576x256_S16x128x128x256_3_0_012_1_n_n.lhsBatch by decide), dif_pos (show (1 : Fin S16x128x128x576.rank) ∈ dot_S16x128x128x576_S576x256_S16x128x128x256_3_0_012_1_n_n.lhsNonContracting by decide)]
  rfl
theorem lhs_2 (i : S16x128x128x256.Idx) (q : dot_S16x128x128x576_S576x256_S16x128x128x256_3_0_012_1_n_n.contr.Idx) :
    (dot_S16x128x128x576_S576x256_S16x128x128x256_3_0_012_1_n_n.lhsIdx i q 2).val = (i 2).val := by
  unfold DotDims.lhsIdx
  rw [dif_neg (show ¬(2 : Fin S16x128x128x576.rank) ∈ dot_S16x128x128x576_S576x256_S16x128x128x256_3_0_012_1_n_n.lhsBatch by decide), dif_pos (show (2 : Fin S16x128x128x576.rank) ∈ dot_S16x128x128x576_S576x256_S16x128x128x256_3_0_012_1_n_n.lhsNonContracting by decide)]
  rfl
theorem lhs_3 (i : S16x128x128x256.Idx) (q : dot_S16x128x128x576_S576x256_S16x128x128x256_3_0_012_1_n_n.contr.Idx) :
    (dot_S16x128x128x576_S576x256_S16x128x128x256_3_0_012_1_n_n.lhsIdx i q 3).val = (q ⟨0, by decide⟩).val :=
  dot_S16x128x128x576_S576x256_S16x128x128x256_3_0_012_1_n_n.lhsIdx_val_of_single rfl i q
theorem rhs_0 (i : S16x128x128x256.Idx) (q : dot_S16x128x128x576_S576x256_S16x128x128x256_3_0_012_1_n_n.contr.Idx) :
    (dot_S16x128x128x576_S576x256_S16x128x128x256_3_0_012_1_n_n.rhsIdx i q 0).val = (q ⟨0, by decide⟩).val :=
  dot_S16x128x128x576_S576x256_S16x128x128x256_3_0_012_1_n_n.rhsIdx_val_of_single rfl i q
theorem rhs_1 (i : S16x128x128x256.Idx) (q : dot_S16x128x128x576_S576x256_S16x128x128x256_3_0_012_1_n_n.contr.Idx) :
    (dot_S16x128x128x576_S576x256_S16x128x128x256_3_0_012_1_n_n.rhsIdx i q 1).val = (i 3).val := by
  unfold DotDims.rhsIdx
  rw [dif_neg (show ¬(1 : Fin S576x256.rank) ∈ dot_S16x128x128x576_S576x256_S16x128x128x256_3_0_012_1_n_n.rhsBatch by decide), dif_pos (show (1 : Fin S576x256.rank) ∈ dot_S16x128x128x576_S576x256_S16x128x128x256_3_0_012_1_n_n.rhsNonContracting by decide)]
  rfl

/-- At the ideal values the product with the weights at `(b, h, w, f)` is the sum over the 576 contracted entries. -/
theorem dot_apply (y : FVec Ideal S16x128x128x576 .f32) (k : FVec Ideal S576x256 .f32) (b : Fin 16) (h w : Fin 128) (f : Fin 256) :
    Host.dotGeneral (F := Ideal) dot_S16x128x128x576_S576x256_S16x128x128x256_3_0_012_1_n_n none y k (ix4 b h w f) = ∑ kk : Fin 576, y (ix4 b h w kk) * k (ix2 kk f) := by
  simp only [Host.dotGeneral]
  rw [Ideal.dotGeneral_apply, ← Equiv.sum_comp (ValueIdx.contrEquiv1 dot_S16x128x128x576_S576x256_S16x128x128x256_3_0_012_1_n_n 576 rfl rfl).symm]
  refine Finset.sum_congr rfl fun kk _ => ?_
  have hk := ValueIdx.contrEquiv1_symm_val dot_S16x128x128x576_S576x256_S16x128x128x256_3_0_012_1_n_n 576 rfl rfl kk
  have el : dot_S16x128x128x576_S576x256_S16x128x128x256_3_0_012_1_n_n.lhsIdx (ix4 b h w f) ((ValueIdx.contrEquiv1 dot_S16x128x128x576_S576x256_S16x128x128x256_3_0_012_1_n_n 576 rfl rfl).symm kk) = ix4 b h w kk := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : dot_S16x128x128x576_S576x256_S16x128x128x256_3_0_012_1_n_n.rhsIdx (ix4 b h w f) ((ValueIdx.contrEquiv1 dot_S16x128x128x576_S576x256_S16x128x128x256_3_0_012_1_n_n 576 rfl rfl).symm kk) = ix2 kk f := funext fun a => Fin.ext (by
    match a with
    | ⟨0, _⟩ => exact (rhs_0 _ _).trans hk
    | ⟨1, _⟩ => exact rhs_1 _ _)
  rw [el, er]

/-! ## The nine copies stacked along the new axis: position `s` on it reads copy `s` -/

theorem stack_0 {α : Type} (p0 p1 p2 p3 p4 p5 p6 p7 p8 : S16x128x128x1x64.Idx → α) (b : Fin 16) (h w : Fin 128) (hs : 0 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨0, hs⟩ : Fin 9) c) = p0 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨0, hs⟩ : Fin 9) c)
    0 (by show (0 : ℕ) < 9; decide) S16x128x128x1x64 p0 rfl rfl 0 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_1 {α : Type} (p0 p1 p2 p3 p4 p5 p6 p7 p8 : S16x128x128x1x64.Idx → α) (b : Fin 16) (h w : Fin 128) (hs : 1 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨1, hs⟩ : Fin 9) c) = p1 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨1, hs⟩ : Fin 9) c)
    1 (by show (1 : ℕ) < 9; decide) S16x128x128x1x64 p1 rfl rfl 1 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_2 {α : Type} (p0 p1 p2 p3 p4 p5 p6 p7 p8 : S16x128x128x1x64.Idx → α) (b : Fin 16) (h w : Fin 128) (hs : 2 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨2, hs⟩ : Fin 9) c) = p2 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨2, hs⟩ : Fin 9) c)
    2 (by show (2 : ℕ) < 9; decide) S16x128x128x1x64 p2 rfl rfl 2 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_3 {α : Type} (p0 p1 p2 p3 p4 p5 p6 p7 p8 : S16x128x128x1x64.Idx → α) (b : Fin 16) (h w : Fin 128) (hs : 3 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨3, hs⟩ : Fin 9) c) = p3 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨3, hs⟩ : Fin 9) c)
    3 (by show (3 : ℕ) < 9; decide) S16x128x128x1x64 p3 rfl rfl 3 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_4 {α : Type} (p0 p1 p2 p3 p4 p5 p6 p7 p8 : S16x128x128x1x64.Idx → α) (b : Fin 16) (h w : Fin 128) (hs : 4 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨4, hs⟩ : Fin 9) c) = p4 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨4, hs⟩ : Fin 9) c)
    4 (by show (4 : ℕ) < 9; decide) S16x128x128x1x64 p4 rfl rfl 4 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_5 {α : Type} (p0 p1 p2 p3 p4 p5 p6 p7 p8 : S16x128x128x1x64.Idx → α) (b : Fin 16) (h w : Fin 128) (hs : 5 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨5, hs⟩ : Fin 9) c) = p5 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨5, hs⟩ : Fin 9) c)
    5 (by show (5 : ℕ) < 9; decide) S16x128x128x1x64 p5 rfl rfl 5 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_6 {α : Type} (p0 p1 p2 p3 p4 p5 p6 p7 p8 : S16x128x128x1x64.Idx → α) (b : Fin 16) (h w : Fin 128) (hs : 6 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨6, hs⟩ : Fin 9) c) = p6 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨6, hs⟩ : Fin 9) c)
    6 (by show (6 : ℕ) < 9; decide) S16x128x128x1x64 p6 rfl rfl 6 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_7 {α : Type} (p0 p1 p2 p3 p4 p5 p6 p7 p8 : S16x128x128x1x64.Idx → α) (b : Fin 16) (h w : Fin 128) (hs : 7 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨7, hs⟩ : Fin 9) c) = p7 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨7, hs⟩ : Fin 9) c)
    7 (by show (7 : ℕ) < 9; decide) S16x128x128x1x64 p7 rfl rfl 7 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

theorem stack_8 {α : Type} (p0 p1 p2 p3 p4 p5 p6 p7 p8 : S16x128x128x1x64.Idx → α) (b : Fin 16) (h w : Fin 128) (hs : 8 < 9) (c : Fin 64) :
    concatenate S16x128x128x9x64 3 [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨8, hs⟩ : Fin 9) c) = p8 (ix5 b h w (0 : Fin 1) c) :=
  concatenate_apply_piece (3 : Fin S16x128x128x9x64.rank) [⟨S16x128x128x1x64, p0⟩, ⟨S16x128x128x1x64, p1⟩, ⟨S16x128x128x1x64, p2⟩, ⟨S16x128x128x1x64, p3⟩, ⟨S16x128x128x1x64, p4⟩, ⟨S16x128x128x1x64, p5⟩, ⟨S16x128x128x1x64, p6⟩, ⟨S16x128x128x1x64, p7⟩, ⟨S16x128x128x1x64, p8⟩] concatenates_S16x128x128x1x64_S16x128x128x1x64_S16x128x128x1x64_S16x128x128x1x64_S16x128x128x1x64_S16x128x128x1x64_S16x128x128x1x64_S16x128x128x1x64_S16x128x128x1x64_S16x128x128x9x64_d3 (ix5 b h w (⟨8, hs⟩ : Fin 9) c)
    8 (by show (8 : ℕ) < 9; decide) S16x128x128x1x64 p8 rfl rfl 8 rfl (ix5 b h w (0 : Fin 1) c)
    (fun a hax => match a, hax with
      | ⟨0, _⟩, _ => rfl
      | ⟨1, _⟩, _ => rfl
      | ⟨2, _⟩, _ => rfl
      | ⟨3, _⟩, hax => absurd rfl hax
      | ⟨4, _⟩, _ => rfl)
    rfl

/-! ## The rolled copies named -/

section Arrays

variable {α : Type}

/-- The rows rolled by -1. -/
def rows0 (x : S16x128x128x64.Idx → α) : S16x128x128x64.Idx → α :=
  concatenate S16x128x128x64 1 [⟨S16x127x128x64, (extractStridedSlice S16x127x128x64 ![0, 1, 0, 0] x slices_S16x128x128x64_S16x127x128x64_0_1_0_0)⟩, ⟨S16x1x128x64, (extractStridedSlice S16x1x128x64 ![0, 0, 0, 0] x slices_S16x128x128x64_S16x1x128x64_0_0_0_0)⟩] concatenates_S16x127x128x64_S16x1x128x64_S16x128x128x64_d1

/-- The rows not rolled. -/
def rows1 (x : S16x128x128x64.Idx → α) : S16x128x128x64.Idx → α :=
  concatenate S16x128x128x64 1 [⟨S16x128x128x64, (extractStridedSlice S16x128x128x64 ![0, 0, 0, 0] x slices_S16x128x128x64_S16x128x128x64_0_0_0_0)⟩, ⟨S16x0x128x64, (extractStridedSlice S16x0x128x64 ![0, 0, 0, 0] x slices_S16x128x128x64_S16x0x128x64_0_0_0_0)⟩] concatenates_S16x128x128x64_S16x0x128x64_S16x128x128x64_d1

/-- The rows rolled by +1. -/
def rows2 (x : S16x128x128x64.Idx → α) : S16x128x128x64.Idx → α :=
  concatenate S16x128x128x64 1 [⟨S16x1x128x64, (extractStridedSlice S16x1x128x64 ![0, 127, 0, 0] x slices_S16x128x128x64_S16x1x128x64_0_127_0_0)⟩, ⟨S16x127x128x64, (extractStridedSlice S16x127x128x64 ![0, 0, 0, 0] x slices_S16x128x128x64_S16x127x128x64_0_0_0_0)⟩] concatenates_S16x1x128x64_S16x127x128x64_S16x128x128x64_d1

/-- The columns rolled by -1. -/
def cols0 (y : S16x128x128x64.Idx → α) : S16x128x128x64.Idx → α :=
  concatenate S16x128x128x64 2 [⟨S16x128x127x64, (extractStridedSlice S16x128x127x64 ![0, 0, 1, 0] y slices_S16x128x128x64_S16x128x127x64_0_0_1_0)⟩, ⟨S16x128x1x64, (extractStridedSlice S16x128x1x64 ![0, 0, 0, 0] y slices_S16x128x128x64_S16x128x1x64_0_0_0_0)⟩] concatenates_S16x128x127x64_S16x128x1x64_S16x128x128x64_d2

/-- The columns not rolled. -/
def cols1 (y : S16x128x128x64.Idx → α) : S16x128x128x64.Idx → α :=
  concatenate S16x128x128x64 2 [⟨S16x128x128x64, (extractStridedSlice S16x128x128x64 ![0, 0, 0, 0] y slices_S16x128x128x64_S16x128x128x64_0_0_0_0)⟩, ⟨S16x128x0x64, (extractStridedSlice S16x128x0x64 ![0, 0, 0, 0] y slices_S16x128x128x64_S16x128x0x64_0_0_0_0)⟩] concatenates_S16x128x128x64_S16x128x0x64_S16x128x128x64_d2

/-- The columns rolled by +1. -/
def cols2 (y : S16x128x128x64.Idx → α) : S16x128x128x64.Idx → α :=
  concatenate S16x128x128x64 2 [⟨S16x128x1x64, (extractStridedSlice S16x128x1x64 ![0, 0, 127, 0] y slices_S16x128x128x64_S16x128x1x64_0_0_127_0)⟩, ⟨S16x128x127x64, (extractStridedSlice S16x128x127x64 ![0, 0, 0, 0] y slices_S16x128x128x64_S16x128x127x64_0_0_0_0)⟩] concatenates_S16x128x1x64_S16x128x127x64_S16x128x128x64_d2

theorem rows0_apply (x : S16x128x128x64.Idx → α) (b : Fin 16) (h w : Fin 128) (c : Fin 64) :
    rows0 x (ix4 b h w c) = x (ix4 b (rollSrc 0 h) w c) := Rolls.rollH0 x _ _ _ b h w c
theorem rows1_apply (x : S16x128x128x64.Idx → α) (b : Fin 16) (h w : Fin 128) (c : Fin 64) :
    rows1 x (ix4 b h w c) = x (ix4 b (rollSrc 1 h) w c) := Rolls.rollH1 x _ _ _ b h w c
theorem rows2_apply (x : S16x128x128x64.Idx → α) (b : Fin 16) (h w : Fin 128) (c : Fin 64) :
    rows2 x (ix4 b h w c) = x (ix4 b (rollSrc 2 h) w c) := Rolls.rollH2 x _ _ _ b h w c
theorem cols0_apply (y : S16x128x128x64.Idx → α) (b : Fin 16) (h w : Fin 128) (c : Fin 64) :
    cols0 y (ix4 b h w c) = y (ix4 b h (rollSrc 0 w) c) := Rolls.rollW0 y _ _ _ b h w c
theorem cols1_apply (y : S16x128x128x64.Idx → α) (b : Fin 16) (h w : Fin 128) (c : Fin 64) :
    cols1 y (ix4 b h w c) = y (ix4 b h (rollSrc 1 w) c) := Rolls.rollW1 y _ _ _ b h w c
theorem cols2_apply (y : S16x128x128x64.Idx → α) (b : Fin 16) (h w : Fin 128) (c : Fin 64) :
    cols2 y (ix4 b h w c) = y (ix4 b h (rollSrc 2 w) c) := Rolls.rollW2 y _ _ _ b h w c

/-- The nine rolled copies, each with its unit axis, stacked along it: tap `s` is the columns rolled by `s / 3 - 1`
    of the rows rolled by `s % 3 - 1`. -/
def stacked (x : S16x128x128x64.Idx → α) : S16x128x128x9x64.Idx → α :=
  concatenate S16x128x128x9x64 3 [⟨S16x128x128x1x64, broadcastInDim S16x128x128x1x64 ![0, 1, 2, 4] bcast_S16x128x128x64_S16x128x128x1x64_0_1_2_4 (cols0 (rows0 x))⟩,
    ⟨S16x128x128x1x64, broadcastInDim S16x128x128x1x64 ![0, 1, 2, 4] bcast_S16x128x128x64_S16x128x128x1x64_0_1_2_4 (cols0 (rows1 x))⟩,
    ⟨S16x128x128x1x64, broadcastInDim S16x128x128x1x64 ![0, 1, 2, 4] bcast_S16x128x128x64_S16x128x128x1x64_0_1_2_4 (cols0 (rows2 x))⟩,
    ⟨S16x128x128x1x64, broadcastInDim S16x128x128x1x64 ![0, 1, 2, 4] bcast_S16x128x128x64_S16x128x128x1x64_0_1_2_4 (cols1 (rows0 x))⟩,
    ⟨S16x128x128x1x64, broadcastInDim S16x128x128x1x64 ![0, 1, 2, 4] bcast_S16x128x128x64_S16x128x128x1x64_0_1_2_4 (cols1 (rows1 x))⟩,
    ⟨S16x128x128x1x64, broadcastInDim S16x128x128x1x64 ![0, 1, 2, 4] bcast_S16x128x128x64_S16x128x128x1x64_0_1_2_4 (cols1 (rows2 x))⟩,
    ⟨S16x128x128x1x64, broadcastInDim S16x128x128x1x64 ![0, 1, 2, 4] bcast_S16x128x128x64_S16x128x128x1x64_0_1_2_4 (cols2 (rows0 x))⟩,
    ⟨S16x128x128x1x64, broadcastInDim S16x128x128x1x64 ![0, 1, 2, 4] bcast_S16x128x128x64_S16x128x128x1x64_0_1_2_4 (cols2 (rows1 x))⟩,
    ⟨S16x128x128x1x64, broadcastInDim S16x128x128x1x64 ![0, 1, 2, 4] bcast_S16x128x128x64_S16x128x128x1x64_0_1_2_4 (cols2 (rows2 x))⟩]
    concatenates_S16x128x128x1x64_S16x128x128x1x64_S16x128x128x1x64_S16x128x128x1x64_S16x128x128x1x64_S16x128x128x1x64_S16x128x128x1x64_S16x128x128x1x64_S16x128x128x1x64_S16x128x128x9x64_d3

/-- The stack at tap `s`, channel `c` is the image at the position moved back circularly by the tap's shift. -/
theorem stacked_apply (x : S16x128x128x64.Idx → α) (b : Fin 16) (h w : Fin 128) (s : Fin 9) (c : Fin 64) :
    stacked x (ix5 b h w s c) = x (ix4 b (rollSrc (s.val % 3) h) (rollSrc (s.val / 3) w) c) := by
  unfold stacked
  match s with
  | ⟨0, hs⟩ =>
    show _ = x (ix4 b (rollSrc (0 % 3) h) (rollSrc (0 / 3) w) c)
    exact (stack_0 _ _ _ _ _ _ _ _ _ b h w hs c).trans ((unit_apply _ b h w 0 c).trans
      ((cols0_apply _ b h w c).trans (rows0_apply x b h (rollSrc 0 w) c)))
  | ⟨1, hs⟩ =>
    show _ = x (ix4 b (rollSrc (1 % 3) h) (rollSrc (1 / 3) w) c)
    exact (stack_1 _ _ _ _ _ _ _ _ _ b h w hs c).trans ((unit_apply _ b h w 0 c).trans
      ((cols0_apply _ b h w c).trans (rows1_apply x b h (rollSrc 0 w) c)))
  | ⟨2, hs⟩ =>
    show _ = x (ix4 b (rollSrc (2 % 3) h) (rollSrc (2 / 3) w) c)
    exact (stack_2 _ _ _ _ _ _ _ _ _ b h w hs c).trans ((unit_apply _ b h w 0 c).trans
      ((cols0_apply _ b h w c).trans (rows2_apply x b h (rollSrc 0 w) c)))
  | ⟨3, hs⟩ =>
    show _ = x (ix4 b (rollSrc (3 % 3) h) (rollSrc (3 / 3) w) c)
    exact (stack_3 _ _ _ _ _ _ _ _ _ b h w hs c).trans ((unit_apply _ b h w 0 c).trans
      ((cols1_apply _ b h w c).trans (rows0_apply x b h (rollSrc 1 w) c)))
  | ⟨4, hs⟩ =>
    show _ = x (ix4 b (rollSrc (4 % 3) h) (rollSrc (4 / 3) w) c)
    exact (stack_4 _ _ _ _ _ _ _ _ _ b h w hs c).trans ((unit_apply _ b h w 0 c).trans
      ((cols1_apply _ b h w c).trans (rows1_apply x b h (rollSrc 1 w) c)))
  | ⟨5, hs⟩ =>
    show _ = x (ix4 b (rollSrc (5 % 3) h) (rollSrc (5 / 3) w) c)
    exact (stack_5 _ _ _ _ _ _ _ _ _ b h w hs c).trans ((unit_apply _ b h w 0 c).trans
      ((cols1_apply _ b h w c).trans (rows2_apply x b h (rollSrc 1 w) c)))
  | ⟨6, hs⟩ =>
    show _ = x (ix4 b (rollSrc (6 % 3) h) (rollSrc (6 / 3) w) c)
    exact (stack_6 _ _ _ _ _ _ _ _ _ b h w hs c).trans ((unit_apply _ b h w 0 c).trans
      ((cols2_apply _ b h w c).trans (rows0_apply x b h (rollSrc 2 w) c)))
  | ⟨7, hs⟩ =>
    show _ = x (ix4 b (rollSrc (7 % 3) h) (rollSrc (7 / 3) w) c)
    exact (stack_7 _ _ _ _ _ _ _ _ _ b h w hs c).trans ((unit_apply _ b h w 0 c).trans
      ((cols2_apply _ b h w c).trans (rows1_apply x b h (rollSrc 2 w) c)))
  | ⟨8, hs⟩ =>
    show _ = x (ix4 b (rollSrc (8 % 3) h) (rollSrc (8 / 3) w) c)
    exact (stack_8 _ _ _ _ _ _ _ _ _ b h w hs c).trans ((unit_apply _ b h w 0 c).trans
      ((cols2_apply _ b h w c).trans (rows2_apply x b h (rollSrc 2 w) c)))
  | ⟨n + 9, hs⟩ => exact absurd hs (by omega)

end Arrays

/-- The reference's term written over the named stack. -/
theorem refTerm_def (x : Vec F S16x128x128x64 .f32) (k : Vec F S576x256 .f32) (bias : Vec F S256 .f32) :
    refTerm x k bias = addf (Host.dotGeneral dot_S16x128x128x576_S576x256_S16x128x128x256_3_0_012_1_n_n none (shapeCast _ (stacked x) shapeCasts_S16x128x128x9x64_S16x128x128x576) k)
      (broadcastInDim S16x128x128x256 ![0, 1, 2, 3] bcast_S1x1x1x256_S16x128x128x256_0_1_2_3 (broadcastInDim S1x1x1x256 ![3] bcast_S256_S1x1x1x256_3 bias)) := rfl

/-- At the ideal values the composed term is the convolution. -/
theorem refTerm_eq (x : Vec Ideal S16x128x128x64 .f32) (k : Vec Ideal S576x256 .f32) (bias : Vec Ideal S256 .f32) :
    refTerm (F := Ideal) x k bias = Conv.conv x k bias := by
  funext j
  obtain ⟨b, h, w, f, rfl⟩ : ∃ (b : Fin 16) (h w : Fin 128) (f : Fin 256), j = ix4 b h w f :=
    ⟨j 0, j 1, j 2, j 3, eq_ix4 j⟩
  rw [Conv.conv_apply, ← Conv.sum_term_eq_accum, refTerm_def]
  refine (addf_apply _ _ _).trans ?_
  refine congrArg₂ (· + ·) ((dot_apply _ k b h w f).trans (Finset.sum_congr rfl fun kk _ => ?_)) (bias_apply bias b h w f)
  -- entry `kk` of the flattened stack is tap `kk / 64`, channel `kk % 64`, and `kk % 576 = kk`
  unfold Conv.term
  refine congrArg₂ (· * ·) ((flat_apply _ b h w kk).trans (stacked_apply x b h w _ _)) (congrArg k ?_)
  exact congrArg (fun r => ix2 r f) (Fin.ext (Nat.mod_eq_of_lt kk.isLt).symm)

end Cert.ReferenceIdeal.RefValue

end
-- ==== Proof.lean ====
/-
  A 3×3 circular convolution as nine accumulated matrix products, against the dense layer over the stacked taps.

  Both programs compute, for an image batch `x [16, 128, 128, 64]`, weights `k [576, 256]` and a bias `[256]`, at
  `(b, h, w, f)` the bias at `f` plus the sum over the nine taps `s` and the 64 channels `c` of
  `x (b, h', w', c) · k (64 s + c, f)`, `(h', w')` being `(h, w)` rolled back circularly by the tap's shift
  (`Conv.conv`, Proof/ConvSpec.lean).

  The kernel stages one image and 128 weight columns per grid point, rolls the image by slicing and concatenating,
  and adds the nine taps' products, half an image at a time, into an accumulator it zeroed (Proof/KRolls.lean,
  KHalf.lean, KPayA.lean, KPayB.lean: each stored value at an index; KChain.lean, KChainSteps.lean, KOut.lean: the
  accumulator after each update and the stored block; KArray.lean: the 32 blocks tile the result).  The reference
  rolls the whole batch nine times, stacks and flattens the copies and takes one matrix product over all 576 pairs
  (Proof/RefRolls.lean, RefValue.lean); that single sum is the nine partial sums added in order
  (`Conv.sum_term_eq_accum`), since addition of extended reals is commutative and associative.  The change of float
  format in the kernel is the identity on the extended reals, so no rule of the idealization is used and no
  finiteness of the inputs is needed for the values; the precondition is never opened.
-/
import proofs.«176972_j77137612636252_1_alg».proof.Defs
import proofs.«176972_j77137612636252_1_alg».proof.Proof.Gen.Kernel
import proofs.«176972_j77137612636252_1_alg».proof.Proof.Gen.Kernel.Skeleton
import proofs.«176972_j77137612636252_1_alg».proof.Proof.Gen.Kernel.Launch
import proofs.«176972_j77137612636252_1_alg».proof.Proof.Gen.Kernel.Points
import proofs.«176972_j77137612636252_1_alg».proof.Proof.Gen.Kernel.Frame
import proofs.«176972_j77137612636252_1_alg».proof.Proof.Gen.KernelIdeal
import proofs.«176972_j77137612636252_1_alg».proof.Proof.Gen.KernelIdeal.Skeleton
import proofs.«176972_j77137612636252_1_alg».proof.Proof.Gen.KernelIdeal.Launch
import proofs.«176972_j77137612636252_1_alg».proof.Proof.Gen.KernelIdeal.Points
import proofs.«176972_j77137612636252_1_alg».proof.Proof.Gen.KernelIdeal.Frame
import proofs.«176972_j77137612636252_1_alg».proof.Proof.Gen.ReferenceIdeal
import proofs.«176972_j77137612636252_1_alg».proof.Proof.Gen.Pre_finite_inputs
import proofs.«176972_j77137612636252_1_alg».proof.Proof.Gen.KernelIdeal.Value
import proofs.«176972_j77137612636252_1_alg».proof.Proof.KArray
import proofs.«176972_j77137612636252_1_alg».proof.Proof.RefRunP
import proofs.«176972_j77137612636252_1_alg».proof.Proof.RefValue
import Idealize.ShloMosaic.Adequacy
import Idealize.ShloMosaic.Init

noncomputable section

namespace Cert.Proof

open Idealize.ShloMosaic Idealize.ShloMosaic.TcCoe Idealize.SL.Sem

/-- The reference's result, as its run states it, is its operations composed on the three arguments. -/
theorem res_eq_refTerm (m : (ℓ : Loc Cert.ReferenceIdeal.nD Cert.ReferenceIdeal.τ Cert.ReferenceIdeal.sig) → Buf (Elt Ideal) ℓ)
    (c : Dev Cert.ReferenceIdeal.nD) :
    Cert.ReferenceIdeal.RunP.res_main_v23 (F := Ideal) m c
      = Cert.ReferenceIdeal.RefValue.refTerm (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := by
  unfold Cert.ReferenceIdeal.RunP.res_main_v23 Cert.ReferenceIdeal.RefValue.refTerm
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end with the convolution of the (agreeing) arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.RunP.run (F := Ideal) m' ρ')
  refine (res_eq_refTerm m' c).trans ((Cert.ReferenceIdeal.RefValue.refTerm_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
